-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel

variable [Facts]

def fn {F : FTy → Type} [FloatOps F] (main_arg0 : FVec F S1000000x128 .f32) (main_arg1 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  main_v3
-- ==== Kernel.lean ====
abbrev S1000000x128 : Shape := ⟨2, ![1000000, 128]⟩
abbrev S1000000 : Shape := ⟨1, ![1000000]⟩
abbrev S2x128x128 : Shape := ⟨3, ![2, 128, 128]⟩
abbrev S2x1x128 : Shape := ⟨3, ![2, 1, 128]⟩
abbrev S8192x128 : Shape := ⟨2, ![8192, 128]⟩
abbrev S8192 : Shape := ⟨1, ![8192]⟩
abbrev S1x128x128 : Shape := ⟨3, ![1, 128, 128]⟩
abbrev S1x1x128 : Shape := ⟨3, ![1, 1, 128]⟩
abbrev S128x128 : Shape := ⟨2, ![128, 128]⟩
abbrev S1x128 : Shape := ⟨2, ![1, 128]⟩
abbrev S8192x1 : Shape := ⟨2, ![8192, 1]⟩
abbrev S128 : Shape := ⟨1, ![128]⟩
abbrev S2x10x128 : Shape := ⟨3, ![2, 10, 128]⟩
abbrev S_ : Shape := ⟨0, ![]⟩
abbrev S10x128 : Shape := ⟨2, ![10, 128]⟩
abbrev S2x1x10 : Shape := ⟨3, ![2, 1, 10]⟩
abbrev S2x10 : Shape := ⟨2, ![2, 10]⟩
abbrev S10 : Shape := ⟨1, ![10]⟩
abbrev S1 : Shape := ⟨1, ![1]⟩

abbrev nBuf : Space → Nat
  | .hbm => 34
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S2x128x128, .f32⟩
  | .hbm, ⟨3, _⟩ => ⟨S2x128x128, .f32⟩
  | .hbm, ⟨4, _⟩ => ⟨S2x1x128, .f32⟩
  | .hbm, ⟨5, _⟩ => ⟨S2x10x128, .f32⟩
  | .hbm, ⟨6, _⟩ => ⟨S_, .f32⟩
  | .hbm, ⟨7, _⟩ => ⟨S10x128, .f32⟩
  | .hbm, ⟨8, _⟩ => ⟨S2x10x128, .f32⟩
  | .hbm, ⟨9, _⟩ => ⟨S_, .f32⟩
  | .hbm, ⟨10, _⟩ => ⟨S10x128, .f32⟩
  | .hbm, ⟨11, _⟩ => ⟨S2x1x10, .f32⟩
  | .hbm, ⟨12, _⟩ => ⟨S2x10, .f32⟩
  | .hbm, ⟨13, _⟩ => ⟨S_, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .f32⟩
  | .hbm, ⟨18, _⟩ => ⟨S10x128, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S10, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .local _ .vmem, ⟨0, _⟩ => ⟨S8192x128, .f32⟩
  | .local _ .vmem, ⟨1, _⟩ => ⟨S8192x128, .f32⟩
  | .local _ .vmem, ⟨2, _⟩ => ⟨S8192, .i32⟩
  | .local _ .vmem, ⟨3, _⟩ => ⟨S8192, .i32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 62], ![false, false]⟩

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c122_i32 : BitVec 32 := 122#32
  let v2 : BitVec 32 := Scalar.minsi v1 c122_i32
  let c0_i32 : BitVec 32 := 0#32
  let c0_i32_0 : BitVec 32 := 0#32
  ![v2.toNat, c0_i32.toNat]

def cc0_transform_1 (i : grid0.Coords) : Fin 1 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c122_i32 : BitVec 32 := 122#32
  let v2 : BitVec 32 := Scalar.minsi v1 c122_i32
  let c0_i32 : BitVec 32 := 0#32
  ![v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  iota_S8192x1_d0_w32 : S8192x1.Iotas .tc 32 [0]
  natLt_1_32 : 1 < 32
  inb_S8192_S8192_0 : ∀ a, (![0] : Fin 1 → Nat) a + S8192.size a ≤ S8192.size a
  h_S8192 : 0 < S8192.numel
  iota_S1x128_d1_w32 : S1x128.Iotas .tc 32 [1]
  shapeCasts_S8192_S8192x1 : S8192.ShapeCasts S8192x1
  broadcasts_S8192x1_S8192x128 : S8192x1.Broadcasts S8192x128
  broadcasts_S1x128_S8192x128 : S1x128.Broadcasts S8192x128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  reduces_S8192x128_S128 : S8192x128.Reduces [0] S128
  shapeCasts_S128_S1x128 : S128.ShapeCasts S1x128
  slices_S2x128x128_S2x10x128_0_0_0 : S2x128x128.Slices ![0, 0, 0] S2x10x128
  reducesTo_S2x10x128_S10x128_d0 : S2x10x128.ReducesTo [0] S10x128
  h_S_ : 0 < S_.numel
  slices_S2x1x128_S2x1x10_0_0_0 : S2x1x128.Slices ![0, 0, 0] S2x1x10
  shapeCasts_S2x1x10_S2x10 : S2x1x10.ShapeCasts S2x10
  reducesTo_S2x10_S10_d0 : S2x10.ReducesTo [0] S10
  bcast_S_S10 : S_.BroadcastsInDim S10 (![] : Fin 0 → Fin S10.rank)
  reducesTo_S10x128_S10_d1 : S10x128.ReducesTo [1] S10
  reducesTo_S10_S_d0 : S10.ReducesTo [0] S_
  shapeCasts_S_S1 : S_.ShapeCasts S1
  dot_S8192x128_S8192x128_S128x128_0_0_1_1_n_n_wf : DotDims.WF S8192x128 S8192x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S1000000x128.size a
  hwx0_0 : ∀ i : grid0.Coords, EltTy.bits .f32 = 32 ∨ (Rect.unit (s := S1000000x128) (fun a => cc0_transform_0 i a * S8192x128.size a) (fun a => (Pipeline.Clip.of (cc0_transform_0 i a) (S8192x128.size a) (S1000000x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S1000000x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192.size a < S1000000.size a
  hwx0_1 : ∀ i : grid0.Coords, EltTy.bits .i32 = 32 ∨ (Rect.unit (s := S1000000) (fun a => cc0_transform_1 i a * S8192.size a) (fun a => (Pipeline.Clip.of (cc0_transform_1 i a) (S8192.size a) (S1000000.size a)).extent (S8192.size a)) fun a => Pipeline.Clip.inb (Pipeline.Clip.ok_of (hstart0_1 i a))).WholeWords (EltTy.packing .i32)
  hwxs0_1 : ∀ i : grid0.Coords, EltTy.bits .i32 = 32 ∨ (Rect.unit (s := S8192) (fun _ => 0) (fun a => (Pipeline.Clip.of (cc0_transform_1 i a) (S8192.size a) (S1000000.size a)).extent (S8192.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf

abbrev win0_0 : Pipeline.Window sig grid0 :=
  Pipeline.Window.ofSpecClip (Memref.whole main_arg0) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0_0) S1x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩
abbrev S10 : Shape := ⟨1, ![10]⟩
abbrev S1000000x1 : Shape := ⟨2, ![1000000, 1]⟩
abbrev S10x128 : Shape := ⟨2, ![10, 128]⟩
abbrev S10x1 : Shape := ⟨2, ![10, 1]⟩
abbrev S1 : Shape := ⟨1, ![1]⟩

abbrev nBuf : Space → Nat
  | .hbm => 41
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S_, .f32⟩
  | .hbm, ⟨3, _⟩ => ⟨S1000000, .f32⟩
  | .hbm, ⟨4, _⟩ => ⟨S_, .f32⟩
  | .hbm, ⟨5, _⟩ => ⟨S10, .f32⟩
  | .hbm, ⟨6, _⟩ => ⟨S1000000x1, .i32⟩
  | .hbm, ⟨7, _⟩ => ⟨S10, .f32⟩
  | .hbm, ⟨8, _⟩ => ⟨S_, .f32⟩
  | .hbm, ⟨9, _⟩ => ⟨S10x128, .f32⟩
  | .hbm, ⟨10, _⟩ => ⟨S1000000x1, .i32⟩
  | .hbm, ⟨11, _⟩ => ⟨S10x128, .f32⟩
  | .hbm, ⟨12, _⟩ => ⟨S10x1, .f32⟩
  | .hbm, ⟨13, _⟩ => ⟨S10x128, .f32⟩
  | .hbm, ⟨14, _⟩ => ⟨S10x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S1000000x128, .f32⟩
  | .hbm, ⟨25, _⟩ => ⟨S1000000x128, .f32⟩
  | .hbm, ⟨26, _⟩ => ⟨S_, .f32⟩
  | .hbm, ⟨27, _⟩ => ⟨S10x128, .f32⟩
  | .hbm, ⟨28, _⟩ => ⟨S1000000x1, .i32⟩
  | .hbm, ⟨29, _⟩ => ⟨S10x128, .f32⟩
  | .hbm, ⟨30, _⟩ => ⟨S_, .f32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S10 : S_.BroadcastsInDim S10 (![] : Fin 0 → Fin S10.rank)
  bcast_S1000000_S1000000x1_0 : S1000000.BroadcastsInDim S1000000x1 (![0] : Fin 1 → Fin S1000000x1.rank)
  bcast_S_S10x128 : S_.BroadcastsInDim S10x128 (![] : Fin 0 → Fin S10x128.rank)
  bcast_S10_S10x1_0 : S10.BroadcastsInDim S10x1 (![0] : Fin 1 → Fin S10x1.rank)
  bcast_S10x1_S10x128_0_1 : S10x1.BroadcastsInDim S10x128 (![0, 1] : Fin 2 → Fin S10x128.rank)
  reducesTo_S10x128_S10_d1 : S10x128.ReducesTo [1] S10
  h_S_ : 0 < S_.numel
  reducesTo_S10_S_d0 : S10.ReducesTo [0] S_
  shapeCasts_S_S1 : S_.ShapeCasts S1
  scatter_S10_S1000000x1_S1000000_n_0_0_1_wf : ScatterDims.WF S10 S1000000x1 S1000000 [] [0] [0] 1
  scatter_S10x128_S1000000x1_S1000000x128_1_0_0_1_wf : ScatterDims.WF S10x128 S1000000x1 S1000000x128 [1] [0] [0] 1
  gather_S10x128_S1000000x1_S1000000x128_1_0_n_n_0_1_1128_wf : GatherDims.WF S10x128 S1000000x1 S1000000x128 [1] [0] [] [0] [] 1 ![1, 128]

variable [Facts₀]

def scatter_S10_S1000000x1_S1000000_n_0_0_1 : ScatterDims S10 S1000000x1 S1000000 where
  updateWindowDims := []
  insertedWindowDims := [0]
  scatterDimsToOperandDims := [0]
  indexVectorDim := 1
  wf := scatter_S10_S1000000x1_S1000000_n_0_0_1_wf
def scatter_S10x128_S1000000x1_S1000000x128_1_0_0_1 : ScatterDims S10x128 S1000000x1 S1000000x128 where
  updateWindowDims := [1]
  insertedWindowDims := [0]
  scatterDimsToOperandDims := [0]
  indexVectorDim := 1
  wf := scatter_S10x128_S1000000x1_S1000000x128_1_0_0_1_wf
def gather_S10x128_S1000000x1_S1000000x128_1_0_n_n_0_1_1128 : GatherDims S10x128 S1000000x1 S1000000x128 where
  offsetDims := [1]
  collapsedSliceDims := [0]
  operandBatchingDims := []
  startIndicesBatchingDims := []
  startIndexMap := [0]
  indexVectorDim := 1
  sliceSizes := ![1, 128]
  wf := gather_S10x128_S1000000x1_S1000000x128_1_0_n_n_0_1_1128_wf

class Facts : Prop extends Facts₀ where

variable [Facts]
-- ==== Proof.FrameBits.lean ====
import proofs.«410710_j31095563223418_2_alg».proof.Proof.BodyBits
import proofs.«410710_j31095563223418_2_alg».proof.Proof.Gen.Kernel.Frame
import Idealize.ShloMosaic.Lib.Pipeline.FrameSuffix
import Idealize.ShloMosaic.Lib.Pipeline.Frame
import Idealize.ShloMosaic.Lib.Pipeline.Kit
import Idealize.ShloMosaic.Lib.Tactic

/-!
  The frame of the word-level program: every weakly fair execution of its main function (one kernel region, then
  twenty-nine host operations) terminates without a fault, and the two argument arrays end as they were launched.

  The two input windows overhang their arrays at the last block, so after that fetch the tail of a staging buffer holds
  words nothing names, and the matrix products carry them into the three accumulators.  The frame does not read what
  the accumulators hold: the proof data below relate nothing (any contents may be left in any buffer), and the run's
  post says of an input window only that its array is never written.
-/

set_option maxRecDepth 16384

noncomputable section

namespace Cert.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The relational proof data of the one pipeline on core c: the arrays as the region finds them; of what the body
    leaves in a staging buffer nothing is said; the invariant is the class's (the scoped rest and the generator
    register); nothing is owed; every array is held at the full share. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- Every array is held at the full share. -/
theorem share (c : Dev nD) (w : Fin cfg0.W) : (rdat m c).share w = fullShare :=
  (rdat m c).share_full (fun _ => rfl) w

/-! ## The body obligation -/

set_option maxHeartbeats 1000000 in
/-- At every point, whatever the five current staging buffers hold, the body runs and hands each back at some contents:
    the body's triple over whole buffers, with the contents it names forgotten. -/
theorem body_obligation (c : Dev nD) :
    (rdat m c).BodyObligation (defs₀ (F := F)) Variants.none () Set.univ := by
  intro t Y _
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply (Cert.Kernel.Body.sound_body (F := F) c Set.univ (grid0.coords t) _ _ _ _ _ _ _ _ _ _
    (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists (Y 0); isplitr
    · ipureintro; trivial
    · iexact H0
  isplitl [H1]
  · iexists (Y 1); isplitr
    · ipureintro; trivial
    · iexact H1
  isplitl [H2]
  · iexists (Cert.Kernel.Body.out2 (grid0.coords t) (Y 0) (Y 1) (Y 2)); isplitr
    · ipureintro; trivial
    · iexact H2
  isplitl [H3]
  · iexists (Cert.Kernel.Body.out3 (grid0.coords t) (Y 0) (Y 1) (Y 3)); isplitr
    · ipureintro; trivial
    · iexact H3
  · iexists (Cert.Kernel.Body.out4 (grid0.coords t) (Y 1) (Y 4)); isplitr
    · ipureintro; trivial
    · iexact H4

/-! ## The run and the frame -/

set_option backward.isDefEq.respectTransparency.types false in
/-- From any memory with zero counters, every weakly fair execution of the main function on the TensorCores terminates,
    and in every final state each input array of the pipeline holds what it held when the region was entered; of the
    buffers the host operations write nothing is said. -/
theorem run : θ_run defs (onTc (τ := τ) (main (F := F))) (s₀ m ρ)
    (Pipeline.RDat.FramePostR cfg0 (rdat m) Finset.univ (fun c b => V0 m c (Proc.devRef .tc b))) :=
  Pipeline.RDat.θ_run_frame_around_T cfgs (0 : Fin 1) launch0 defs₀ Variants.none (rdat m) Finset.univ m ρ main
    (hbody := body_obligation m) (hshare := share m) (howed := fun _ _ => rfl)
    (V₀ := V0 m) (opss := [hostOps1]) (hsub := sfx_sub) (hfresh := sfx_fresh) (hkeep := sfx_keeps)
    (hT := fun _ _ _ _ _ _ => Finset.mem_univ _)
    (hmain := hmain m Variants.none) (hA := fun _ _ => rfl) (hΦ := fun _ _ => rfl)

/-- The frame: every weakly fair execution terminates without a fault, and the two argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.arr_in c 0 rfl).trans (V_main_arg0 m c),
      (h.arr_in c 1 rfl).trans (V_main_arg1 m c)⟩) (run m ρ)

end Cert.FrameBits

end
-- ==== Proof.Body.lean ====
import proofs.«410710_j31095563223418_2_alg».proof.Proof.Gen.KernelIdeal.Skeleton
import Idealize.ShloMosaic.Lib.Pipeline.Kit
import Idealize.ShloMosaic.Lib.Tactic
import Idealize.ShloMosaic.Lib.Pipeline.Value

/-!
  One grid point of the kernel, as a triple over whole staging buffers, at any float instance.

  The body reads the label block and the data block, forms the masked one-hot matrix of the labels, and adds to each
  of its three accumulators: the one-hot matrix times the data block, the one-hot matrix times the squared data block,
  and the column sums of the one-hot matrix.  At the first point of a core's row of points (second grid coordinate 0)
  the accumulators are first reset to zero; at every later point they start from what the buffers held.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What an accumulator starts from at grid point i: the zero block at the first point of a row of points, else what
    the buffer held. -/
def start2 (i : grid0.Coords) (X2 : Vec F S1x128x128 .f32) : Vec F S1x128x128 .f32 :=
  if (i 1).val = 0 then k0_pay3 (F := F) else X2
def start3 (i : grid0.Coords) (X3 : Vec F S1x128x128 .f32) : Vec F S1x128x128 .f32 :=
  if (i 1).val = 0 then k0_pay4 (F := F) else X3
def start4 (i : grid0.Coords) (X4 : Vec F S1x1x128 .f32) : Vec F S1x1x128 .f32 :=
  if (i 1).val = 0 then k0_pay5 (F := F) else X4

/-- What the three accumulators hold after the point, from the data block X0, the label block X1 and what they held. -/
def out2 (i : grid0.Coords) (X0 : Vec F S8192x128 .f32) (X1 : Vec F S8192 .i32) (X2 : Vec F S1x128x128 .f32) :
    Vec F S1x128x128 .f32 := k0_pay10 i X1 X0 (start2 i X2)
def out3 (i : grid0.Coords) (X0 : Vec F S8192x128 .f32) (X1 : Vec F S8192 .i32) (X3 : Vec F S1x128x128 .f32) :
    Vec F S1x128x128 .f32 := k0_pay1 (k0_pay8 i X1 X0) (start3 i X3)
def out4 (i : grid0.Coords) (X1 : Vec F S8192 .i32) (X4 : Vec F S1x1x128 .f32) :
    Vec F S1x1x128 .f32 := k0_pay2 (k0_pay9 i X1) (start4 i X4)

/-- The offsets of a whole-buffer access are zero along every axis, however the zeros are spelt. -/
theorem off1_zero : (![0] : Fin 1 → Nat) = fun _ => 0 := funext fun a => by fin_cases a <;> rfl
theorem off2_zero : (![0, 0] : Fin 2 → Nat) = fun _ => 0 := funext fun a => by fin_cases a <;> rfl
theorem off3_zero : (![0, 0, 0] : Fin 3 → Nat) = fun _ => 0 := funext fun a => by fin_cases a <;> rfl

/-- A buffer whose last store went through the whole-shape rectangle at zero offsets reads as that store's payload,
    whatever the buffer held and whatever was stored into it before: the last piece alone covers every index, and under
    the last piece the canonical contents are its payload. -/
theorem read_writes_unit_zero {Val : EltTy → Type} [∀ e, Nonempty (Val e)] {sg : RefSig} {κ : Kind} {sp : Space} {S : Shape}
    {e : EltTy} (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

/-- The condition of the body's one conditional, from the grid coordinates: the second coordinate, as a 32-bit word,
    compared with zero, the bit widened and compared with zero again. -/
abbrev resetCond (i : grid0.Coords) : Prop :=
  (Scalar.cmpi .ne (Scalar.extui (Scalar.cmpi .eq (BitVec.ofNat 32 (i 1).val) 0#32)) 0#32) = 1#1

/-- It holds exactly at the first point of a row of points: the second coordinate is below 62, so its word is zero just
    when it is; decided over the 62 values. -/
theorem resetCond_iff (i : grid0.Coords) : resetCond i ↔ (i 1).val = 0 := by
  have : ∀ k : Fin 62, ((Scalar.cmpi .ne (Scalar.extui (Scalar.cmpi .eq (BitVec.ofNat 32 k.val) 0#32)) 0#32) = 1#1) ↔ k.val = 0 := by
    decide +kernel
  exact this (i 1)

set_option maxHeartbeats 1000000 in
/-- The body at the first point of a row of points. The conditional is taken: each accumulator is stored twice through
    its whole rectangle, the zero block first and then the update of the zero block read back; the second store alone
    decides what the buffer reads, and the load between the two reads the zero block. The two input buffers are only
    loaded, whole, so each load is the buffer's contents. -/
theorem sound_body_first (c : Dev nD) (E : Set ℕ) (i : grid0.Coords) (h : (i 1).val = 0)
    (arg2 : Memref sig .tc .vmem S8192x128 .f32) (harg2 : arg2.IsWhole) (arg3 : Memref sig .tc .vmem S8192 .i32) (harg3 : arg3.IsWhole)
    (arg4 : Memref sig .tc .vmem S1x128x128 .f32) (harg4 : arg4.IsWhole) (arg5 : Memref sig .tc .vmem S1x128x128 .f32) (harg5 : arg5.IsWhole)
    (arg6 : Memref sig .tc .vmem S1x1x128 .f32) (harg6 : arg6.IsWhole)
    (X0 : Vec F S8192x128 .f32) (X1 : Vec F S8192 .i32) (X2 X3 : Vec F S1x128x128 .f32) (X4 : Vec F S1x1x128 .f32)
    (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4)
          ∗ (iprop(owns (c : Thread nD τ) arg2 fullShare X0 ∗ owns (c : Thread nD τ) arg3 fullShare X1
                ∗ owns (c : Thread nD τ) arg4 fullShare (out2 i X0 X1 X2) ∗ owns (c : Thread nD τ) arg5 fullShare (out3 i X0 X1 X3)
                ∗ owns (c : Thread nD τ) arg6 fullShare (out4 i X1 X4)) -∗ K ⟨⟩))
      ⊢ wp frame (wpE (defs₀ (F := F)) Variants.none c none) E
          (cc0__fused_kernel i arg2 harg2 arg3 harg3 arg4 harg4 arg5 harg5 arg6 harg6) K := by
  have hc : resetCond i := (resetCond_iff i).mpr h
  simp only [cc0__fused_kernel_eq_skeleton]; unfold cc0__fused_kernel_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (read_writes_unit_zero (S := S1x128x128) _ _ off3_zero _ _ _).trans ?_
    simp only [View.readAt_eq_ld, harg2.read_unread, harg3.read_unread,
      View.ld_unit_zero (S := S8192) off1_zero, View.ld_unit_zero (S := S8192x128) off2_zero,
      View.readCov_unit_zero (S := S1x128x128) _ off3_zero]
    unfold out2 start2; rw [if_pos h]
  isplitl [H3]
  · iexists _; isplitr; swap; · iexact H3
    ipureintro
    refine (read_writes_unit_zero (S := S1x128x128) _ _ off3_zero _ _ _).trans ?_
    simp only [View.readAt_eq_ld, harg2.read_unread, harg3.read_unread,
      View.ld_unit_zero (S := S8192) off1_zero, View.ld_unit_zero (S := S8192x128) off2_zero,
      View.readCov_unit_zero (S := S1x128x128) _ off3_zero]
    unfold out3 start3; rw [if_pos h]
  · iexists _; isplitr; swap; · iexact H4
    ipureintro
    refine (read_writes_unit_zero (S := S1x1x128) _ _ off3_zero _ _ _).trans ?_
    simp only [View.readAt_eq_ld, harg2.read_unread, harg3.read_unread,
      View.ld_unit_zero (S := S8192) off1_zero, View.ld_unit_zero (S := S8192x128) off2_zero,
      View.readCov_unit_zero (S := S1x1x128) _ off3_zero]
    unfold out4 start4; rw [if_pos h]

set_option maxHeartbeats 1000000 in
/-- The body at a later point of a row. The conditional is skipped: each accumulator is loaded whole, which reads what
    it held, and stored once through its whole rectangle, which leaves the update of what it held. -/
theorem sound_body_later (c : Dev nD) (E : Set ℕ) (i : grid0.Coords) (h : ¬ (i 1).val = 0)
    (arg2 : Memref sig .tc .vmem S8192x128 .f32) (harg2 : arg2.IsWhole) (arg3 : Memref sig .tc .vmem S8192 .i32) (harg3 : arg3.IsWhole)
    (arg4 : Memref sig .tc .vmem S1x128x128 .f32) (harg4 : arg4.IsWhole) (arg5 : Memref sig .tc .vmem S1x128x128 .f32) (harg5 : arg5.IsWhole)
    (arg6 : Memref sig .tc .vmem S1x1x128 .f32) (harg6 : arg6.IsWhole)
    (X0 : Vec F S8192x128 .f32) (X1 : Vec F S8192 .i32) (X2 X3 : Vec F S1x128x128 .f32) (X4 : Vec F S1x1x128 .f32)
    (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4)
          ∗ (iprop(owns (c : Thread nD τ) arg2 fullShare X0 ∗ owns (c : Thread nD τ) arg3 fullShare X1
                ∗ owns (c : Thread nD τ) arg4 fullShare (out2 i X0 X1 X2) ∗ owns (c : Thread nD τ) arg5 fullShare (out3 i X0 X1 X3)
                ∗ owns (c : Thread nD τ) arg6 fullShare (out4 i X1 X4)) -∗ K ⟨⟩))
      ⊢ wp frame (wpE (defs₀ (F := F)) Variants.none c none) E
          (cc0__fused_kernel i arg2 harg2 arg3 harg3 arg4 harg4 arg5 harg5 arg6 harg6) K := by
  have hc : ¬ resetCond i := fun hh => h ((resetCond_iff i).mp hh)
  simp only [cc0__fused_kernel_eq_skeleton]; unfold cc0__fused_kernel_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | exact hc)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (read_writes_unit_zero (S := S1x128x128) _ _ off3_zero _ _ _).trans ?_
    simp only [View.readAt_eq_ld, harg2.read_unread, harg3.read_unread, harg4.read_unread,
      View.ld_unit_zero (S := S8192) off1_zero, View.ld_unit_zero (S := S8192x128) off2_zero, View.ld_unit_zero (S := S1x128x128) off3_zero]
    unfold out2 start2; rw [if_neg h]
  isplitl [H3]
  · iexists _; isplitr; swap; · iexact H3
    ipureintro
    refine (read_writes_unit_zero (S := S1x128x128) _ _ off3_zero _ _ _).trans ?_
    simp only [View.readAt_eq_ld, harg2.read_unread, harg3.read_unread, harg5.read_unread,
      View.ld_unit_zero (S := S8192) off1_zero, View.ld_unit_zero (S := S8192x128) off2_zero, View.ld_unit_zero (S := S1x128x128) off3_zero]
    unfold out3 start3; rw [if_neg h]
  · iexists _; isplitr; swap; · iexact H4
    ipureintro
    refine (read_writes_unit_zero (S := S1x1x128) _ _ off3_zero _ _ _).trans ?_
    simp only [View.readAt_eq_ld, harg2.read_unread, harg3.read_unread, harg6.read_unread,
      View.ld_unit_zero (S := S8192) off1_zero, View.ld_unit_zero (S := S8192x128) off2_zero, View.ld_unit_zero (S := S1x1x128) off3_zero]
    unfold out4 start4; rw [if_neg h]

/-- The body at grid point i on five whole staging buffers: the two input buffers end as they were, the three
    accumulators at out2, out3, out4. -/
theorem sound_body (c : Dev nD) (E : Set ℕ) (i : grid0.Coords)
    (arg2 : Memref sig .tc .vmem S8192x128 .f32) (harg2 : arg2.IsWhole) (arg3 : Memref sig .tc .vmem S8192 .i32) (harg3 : arg3.IsWhole)
    (arg4 : Memref sig .tc .vmem S1x128x128 .f32) (harg4 : arg4.IsWhole) (arg5 : Memref sig .tc .vmem S1x128x128 .f32) (harg5 : arg5.IsWhole)
    (arg6 : Memref sig .tc .vmem S1x1x128 .f32) (harg6 : arg6.IsWhole)
    (X0 : Vec F S8192x128 .f32) (X1 : Vec F S8192 .i32) (X2 X3 : Vec F S1x128x128 .f32) (X4 : Vec F S1x1x128 .f32)
    (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4)
          ∗ (iprop(owns (c : Thread nD τ) arg2 fullShare X0 ∗ owns (c : Thread nD τ) arg3 fullShare X1
                ∗ owns (c : Thread nD τ) arg4 fullShare (out2 i X0 X1 X2) ∗ owns (c : Thread nD τ) arg5 fullShare (out3 i X0 X1 X3)
                ∗ owns (c : Thread nD τ) arg6 fullShare (out4 i X1 X4)) -∗ K ⟨⟩))
      ⊢ wp frame (wpE (defs₀ (F := F)) Variants.none c none) E
          (cc0__fused_kernel i arg2 harg2 arg3 harg3 arg4 harg4 arg5 harg5 arg6 harg6) K := by
  by_cases h : (i 1).val = 0
  · exact sound_body_first c E i h arg2 harg2 arg3 harg3 arg4 harg4 arg5 harg5 arg6 harg6 X0 X1 X2 X3 X4 K
  · exact sound_body_later c E i h arg2 harg2 arg3 harg3 arg4 harg4 arg5 harg5 arg6 harg6 X0 X1 X2 X3 X4 K

end Cert.KernelIdeal.Body

end
-- ==== Proof.PayVal.lean ====
import proofs.«410710_j31095563223418_2_alg».proof.Proof.Body
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

/-!
  The three accumulators after one grid point of the kernel, read at an index, at the ideal values.

  The masked one-hot matrix of the labels has, at row r and class c, the weight 1 when the row's label word is the word
  of c and the row lies inside the array of a million rows, else 0.  Each accumulator after the point is what it started
  from plus a sum over the 8192 staging rows weighted by that matrix: of the data block's column, of its square, and of
  the weights alone.  Rows outside the array have weight 0, so the accumulators do not depend on them.
-/

set_option maxRecDepth 16384

noncomputable section

namespace Cert.KernelIdeal.PayVal

open Cert.KernelIdeal Cert.KernelIdeal.Gen Cert.KernelIdeal.Body Idealize.ShloMosaic Idealize.ShloMosaic.ValueIdx
open scoped BigOperators

/-- The weight of staging row r for class c at grid point i: 1 when the row's label word is the word of c and the row
    lies inside the array of a million rows, else 0. -/
def wgt (i : grid0.Coords) (X1 : Vec Ideal S8192 .i32) (r : Fin 8192) (c : Fin 128) : EReal :=
  if X1 (ix1 r) = BitVec.ofNat 32 c.val ∧ ((i 0).val * 62 + (i 1).val) * 8192 + r.val < 1000000 then 1 else 0

/-! ## Words -/

/-- At the ideal values an integer word converts to its signed integer. -/
theorem sitofp_ideal {w : Nat} (b : BitVec w) : FloatOps.sitofp (F := Ideal) .f32 b = ((b.toInt : ℝ) : EReal) := rfl

/-- A one-bit condition widened to 32 bits and converted is 1 or 0. -/
theorem word01 (p : Bool) : (((BitVec.setWidth 32 (BitVec.ofBool p)).toInt : ℝ) : EReal) = if p = true then 1 else 0 := by
  cases p
  · simp
  · simp

/-- The equality comparison of two words is the bit of their equality. -/
theorem cmpi_eq_word (x y : BitVec 32) : IntOp.cmpi .eq x y = BitVec.ofBool (decide (x = y)) := by
  show BitVec.ofBool (x == y) = _
  congr 1

/-- The global row number of staging row r at grid point (a, b), computed in 32-bit words, does not wrap. -/
theorem rowWord (a b r : Nat) (ha : a < 2) (hb : b < 62) (hr : r < 8192) :
    IntOp.addi (Scalar.muli (Scalar.addi (Scalar.muli (BitVec.ofNat 32 a) 62#32) (BitVec.ofNat 32 b)) 8192#32) (BitVec.ofNat 32 r)
      = BitVec.ofNat 32 ((a * 62 + b) * 8192 + r) := by
  show (BitVec.ofNat 32 a * 62#32 + BitVec.ofNat 32 b) * 8192#32 + BitVec.ofNat 32 r = _
  apply BitVec.eq_of_toNat_eq
  simp only [BitVec.toNat_add, BitVec.toNat_mul, BitVec.toNat_ofNat]
  omega

/-- The signed comparison of a small word with a million is the comparison of the numbers. -/
theorem slt_word (n : Nat) (hn : n < 2147483648) :
    IntOp.cmpi .slt (BitVec.ofNat 32 n) 1000000#32 = BitVec.ofBool (decide (n < 1000000)) := by
  show BitVec.ofBool (BitVec.slt (BitVec.ofNat 32 n) 1000000#32) = _
  congr 1
  rw [BitVec.slt]
  have h1 : (BitVec.ofNat 32 n).toInt = (n : Int) := by
    rw [BitVec.toInt_eq_toNat_cond]
    simp only [BitVec.toNat_ofNat]
    split <;> omega
  have h2 : (1000000#32 : BitVec 32).toInt = 1000000 := by decide
  rw [h1, h2]
  simp

/-! ## Layout operations at an index -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem cmpi_apply {s : Shape} {w : Nat} (p : CmpIPredicate) (x y : IVec s w) (j : s.Idx) : cmpi p x y j = IntOp.cmpi p (x j) (y j) := rfl
theorem addi_apply {s : Shape} {w : Nat} (x y : IVec s w) (j : s.Idx) : addi x y j = IntOp.addi (x j) (y j) := rfl

/-! ## The masked one-hot matrix -/

/-- The masked one-hot matrix of the labels at (r, c) is the weight of row r for class c. -/
theorem pay6_apply (i : grid0.Coords) (X1 : Vec Ideal S8192 .i32) (r : Fin 8192) (c : Fin 128) :
    k0_pay6 (F := Ideal) i X1 (ix2 r c) = wgt i X1 r c := by
  have h0 : (i 0).val < 2 := (i 0).isLt
  have h1 : (i 1).val < 62 := (i 1).isLt
  have hr : r.val < 8192 := r.isLt
  unfold k0_pay6
  simp only [mulf_apply, sitofp_apply, extui_apply]
  rw [broadcastTo_a1_ab_apply]
  simp only [sitofp_apply, extui_apply, cmpi_apply, addi_apply, broadcast_apply]
  rw [broadcastTo_a1_ab_apply, broadcastTo_1b_ab_apply, shapeCast_a_a1_apply, iota_single_apply, iota_single_apply]
  show FloatOps.sitofp (F := Ideal) .f32 (BitVec.setWidth 32 (IntOp.cmpi .eq (X1 (ix1 r)) (BitVec.ofNat 32 c.val)))
      * FloatOps.sitofp (F := Ideal) .f32 (BitVec.setWidth 32 (IntOp.cmpi .slt
          (IntOp.addi (Scalar.muli (Scalar.addi (Scalar.muli (BitVec.ofNat 32 (i 0).val) 62#32) (BitVec.ofNat 32 (i 1).val)) 8192#32)
            (BitVec.ofNat 32 r.val)) 1000000#32)) = _
  rw [rowWord _ _ _ h0 h1 hr, slt_word _ (by omega), cmpi_eq_word, sitofp_ideal, sitofp_ideal, word01, word01]
  unfold wgt
  by_cases hA : X1 (ix1 r) = BitVec.ofNat 32 c.val <;>
    by_cases hB : ((i 0).val * 62 + (i 1).val) * 8192 + r.val < 1000000 <;> simp [hA, hB]

/-- Rounding to the narrower format is the identity at the ideal values: the rounded one-hot matrix is the one-hot matrix. -/
theorem pay7_apply (i : grid0.Coords) (X1 : Vec Ideal S8192 .i32) (r : Fin 8192) (c : Fin 128) :
    k0_pay7 (F := Ideal) i X1 (ix2 r c) = wgt i X1 r c := by
  unfold k0_pay7
  show k0_pay6 (F := Ideal) i X1 (ix2 r c) = _
  exact pay6_apply i X1 r c

/-! ## The contraction over the staging rows -/

theorem lhs_rows_0 (j : S128x128.Idx) (k : dot_S8192x128_S8192x128_S128x128_0_0_1_1_n_n.contr.Idx) :
    (dot_S8192x128_S8192x128_S128x128_0_0_1_1_n_n.lhsIdx j k 0 : ℕ) = k ⟨0, by decide⟩ := by
  simp [DotDims.lhsIdx, dot_S8192x128_S8192x128_S128x128_0_0_1_1_n_n]; rfl
theorem lhs_rows_1 (j : S128x128.Idx) (k : dot_S8192x128_S8192x128_S128x128_0_0_1_1_n_n.contr.Idx) :
    (dot_S8192x128_S8192x128_S128x128_0_0_1_1_n_n.lhsIdx j k 1 : ℕ) = j 0 := by
  simp [DotDims.lhsIdx, dot_S8192x128_S8192x128_S128x128_0_0_1_1_n_n]; rfl
theorem rhs_rows_0 (j : S128x128.Idx) (k : dot_S8192x128_S8192x128_S128x128_0_0_1_1_n_n.contr.Idx) :
    (dot_S8192x128_S8192x128_S128x128_0_0_1_1_n_n.rhsIdx j k 0 : ℕ) = k ⟨0, by decide⟩ := by
  simp [DotDims.rhsIdx, dot_S8192x128_S8192x128_S128x128_0_0_1_1_n_n]; rfl
theorem rhs_rows_1 (j : S128x128.Idx) (k : dot_S8192x128_S8192x128_S128x128_0_0_1_1_n_n.contr.Idx) :
    (dot_S8192x128_S8192x128_S128x128_0_0_1_1_n_n.rhsIdx j k 1 : ℕ) = j 1 := by
  simp [DotDims.rhsIdx, dot_S8192x128_S8192x128_S128x128_0_0_1_1_n_n]; rfl

/-- The product contracting the row axis of both operands, into the zero block, read at (c, d): the sum over the rows
    of the left operand's column c times the right operand's column d. -/
theorem matmul_rows_apply (A B : FVec Ideal S8192x128 .bf16) (c d : Fin 128) :
    matmul dot_S8192x128_S8192x128_S128x128_0_0_1_1_n_n none A B (constant (F := Ideal) S128x128 .f32 0x00000000#32) (ix2 c d)
      = ∑ r : Fin 8192, A (ix2 r c) * B (ix2 r d) := by
  refine (Ideal.matmul_constant_zero_apply _ none A B (ix2 c d)).trans ?_
  rw [← Equiv.sum_comp (contrEquiv1 dot_S8192x128_S8192x128_S128x128_0_0_1_1_n_n 8192 rfl rfl).symm]
  refine Finset.sum_congr rfl fun r _ => ?_
  have hk := contrEquiv1_symm_val dot_S8192x128_S8192x128_S128x128_0_0_1_1_n_n 8192 rfl rfl r
  have eL : dot_S8192x128_S8192x128_S128x128_0_0_1_1_n_n.lhsIdx (ix2 c d)
      ((contrEquiv1 dot_S8192x128_S8192x128_S128x128_0_0_1_1_n_n 8192 rfl rfl).symm r) = ix2 r c :=
    Shape.idx_ext₂ ((lhs_rows_0 _ _).trans hk) (lhs_rows_1 _ _)
  have eR : dot_S8192x128_S8192x128_S128x128_0_0_1_1_n_n.rhsIdx (ix2 c d)
      ((contrEquiv1 dot_S8192x128_S8192x128_S128x128_0_0_1_1_n_n 8192 rfl rfl).symm r) = ix2 r d :=
    Shape.idx_ext₂ ((rhs_rows_0 _ _).trans hk) (rhs_rows_1 _ _)
  rw [eL, eR]

/-! ## The payloads at an index -/

/-- The one-hot matrix times the squared data block, read at (c, d). -/
theorem pay8_apply (i : grid0.Coords) (X1 : Vec Ideal S8192 .i32) (X0 : Vec Ideal S8192x128 .f32) (c d : Fin 128) :
    k0_pay8 (F := Ideal) i X1 X0 (ix2 c d) = ∑ r : Fin 8192, wgt i X1 r c * (X0 (ix2 r d) * X0 (ix2 r d)) := by
  unfold k0_pay8
  refine (matmul_rows_apply _ _ c d).trans ?_
  refine Finset.sum_congr rfl fun r _ => ?_
  rw [pay7_apply]
  rfl

/-- The column sums of the one-hot matrix, read at (u, c). -/
theorem pay9_apply (i : grid0.Coords) (X1 : Vec Ideal S8192 .i32) (u : Fin 1) (c : Fin 128) :
    k0_pay9 (F := Ideal) i X1 (ix2 u c) = ∑ r : Fin 8192, wgt i X1 r c := by
  unfold k0_pay9
  rw [shapeCast_a_1a_apply]
  refine (Ideal.multiReduction_add_single (k0_pay6 (F := Ideal) i X1) 0x00000000#32 reduces_S8192x128_S128 (.inl rfl) rfl (ix1 c)).trans ?_
  show ∑ r : Fin 8192, k0_pay6 (F := Ideal) i X1 (reduces_S8192x128_S128.lift (ix1 c) r) = _
  refine Finset.sum_congr rfl fun r _ => ?_
  have e : reduces_S8192x128_S128.lift (ix1 c) r = ix2 r c := Shape.idx_ext₂ rfl rfl
  rw [e, pay6_apply]

/-- The first accumulator after the point, read at (0, c, d), from what it started from. -/
theorem pay10_apply (i : grid0.Coords) (X1 : Vec Ideal S8192 .i32) (X0 : Vec Ideal S8192x128 .f32)
    (P : Vec Ideal S1x128x128 .f32) (c d : Fin 128) :
    k0_pay10 (F := Ideal) i X1 X0 P (ix3 (0 : Fin 1) c d) = P (ix3 (0 : Fin 1) c d) + ∑ r : Fin 8192, wgt i X1 r c * X0 (ix2 r d) := by
  unfold k0_pay10
  rw [shapeCast_ab_1ab_apply]
  simp only [addf_apply]
  rw [shapeCast_1ab_ab_apply, matmul_rows_apply]
  congr 1
  refine Finset.sum_congr rfl fun r _ => ?_
  rw [pay7_apply]
  rfl

/-- The second accumulator after the point, read at (0, c, d). -/
theorem pay1_apply (V : FVec Ideal S128x128 .f32) (P : Vec Ideal S1x128x128 .f32) (c d : Fin 128) :
    k0_pay1 (F := Ideal) V P (ix3 (0 : Fin 1) c d) = P (ix3 (0 : Fin 1) c d) + V (ix2 c d) := by
  unfold k0_pay1
  rw [shapeCast_ab_1ab_apply]
  simp only [addf_apply]
  rw [shapeCast_1ab_ab_apply]

/-- The third accumulator after the point, read at (0, 0, c). -/
theorem pay2_apply (V : FVec Ideal S1x128 .f32) (P : Vec Ideal S1x1x128 .f32) (c : Fin 128) :
    k0_pay2 (F := Ideal) V P (ix3 (0 : Fin 1) (0 : Fin 1) c) = P (ix3 (0 : Fin 1) (0 : Fin 1) c) + V (ix2 (0 : Fin 1) c) := by
  unfold k0_pay2
  rw [shapeCast_ab_1ab_apply]
  simp only [addf_apply]
  rw [shapeCast_1ab_ab_apply]

/-! ## The three accumulators after a grid point -/

theorem out2_apply (i : grid0.Coords) (X0 : Vec Ideal S8192x128 .f32) (X1 : Vec Ideal S8192 .i32) (X2 : Vec Ideal S1x128x128 .f32)
    (c d : Fin 128) :
    out2 (F := Ideal) i X0 X1 X2 (ix3 0 c d)
      = start2 (F := Ideal) i X2 (ix3 0 c d) + ∑ r : Fin 8192, wgt i X1 r c * X0 (ix2 r d) := by
  unfold out2
  exact pay10_apply i X1 X0 _ c d

theorem out3_apply (i : grid0.Coords) (X0 : Vec Ideal S8192x128 .f32) (X1 : Vec Ideal S8192 .i32) (X3 : Vec Ideal S1x128x128 .f32)
    (c d : Fin 128) :
    out3 (F := Ideal) i X0 X1 X3 (ix3 0 c d)
      = start3 (F := Ideal) i X3 (ix3 0 c d) + ∑ r : Fin 8192, wgt i X1 r c * (X0 (ix2 r d) * X0 (ix2 r d)) := by
  unfold out3
  rw [pay1_apply, pay8_apply]

theorem out4_apply (i : grid0.Coords) (X1 : Vec Ideal S8192 .i32) (X4 : Vec Ideal S1x1x128 .f32) (c : Fin 128) :
    out4 (F := Ideal) i X1 X4 (ix3 0 0 c) = start4 (F := Ideal) i X4 (ix3 0 0 c) + ∑ r : Fin 8192, wgt i X1 r c := by
  unfold out4
  rw [pay2_apply, pay9_apply]

/-! ## What the accumulators start from -/

theorem start2_first (i : grid0.Coords) (X2 : Vec Ideal S1x128x128 .f32) (h : (i 1).val = 0) (j : S1x128x128.Idx) :
    start2 (F := Ideal) i X2 j = 0 := by
  unfold start2
  rw [if_pos h]
  exact Ideal.ofBits_zero_f32
theorem start3_first (i : grid0.Coords) (X3 : Vec Ideal S1x128x128 .f32) (h : (i 1).val = 0) (j : S1x128x128.Idx) :
    start3 (F := Ideal) i X3 j = 0 := by
  unfold start3
  rw [if_pos h]
  exact Ideal.ofBits_zero_f32
theorem start4_first (i : grid0.Coords) (X4 : Vec Ideal S1x1x128 .f32) (h : (i 1).val = 0) (j : S1x1x128.Idx) :
    start4 (F := Ideal) i X4 j = 0 := by
  unfold start4
  rw [if_pos h]
  exact Ideal.ofBits_zero_f32

theorem start2_later (i : grid0.Coords) (X2 : Vec Ideal S1x128x128 .f32) (h : (i 1).val ≠ 0) : start2 (F := Ideal) i X2 = X2 := by
  unfold start2
  exact if_neg h
theorem start3_later (i : grid0.Coords) (X3 : Vec Ideal S1x128x128 .f32) (h : (i 1).val ≠ 0) : start3 (F := Ideal) i X3 = X3 := by
  unfold start3
  exact if_neg h
theorem start4_later (i : grid0.Coords) (X4 : Vec Ideal S1x1x128 .f32) (h : (i 1).val ≠ 0) : start4 (F := Ideal) i X4 = X4 := by
  unfold start4
  exact if_neg h

/-! ## Rows outside the array do not matter -/

/-- Staging row r at grid point i lies inside the array of a million rows. -/
def valid (i : grid0.Coords) (r : Fin 8192) : Prop := ((i 0).val * 62 + (i 1).val) * 8192 + r.val < 1000000

/-- A row outside the array has weight 0 for every class. -/
theorem wgt_of_not_valid (i : grid0.Coords) (X1 : Vec Ideal S8192 .i32) (r : Fin 8192) (c : Fin 128) (h : ¬ valid i r) :
    wgt i X1 r c = 0 := by
  unfold wgt
  exact if_neg fun hh => h hh.2

/-- The weight of a row depends on its label only when the row lies inside the array. -/
theorem wgt_congr (i : grid0.Coords) (X1 X1' : Vec Ideal S8192 .i32) (r : Fin 8192) (c : Fin 128)
    (hL : valid i r → X1 (ix1 r) = X1' (ix1 r)) : wgt i X1 r c = wgt i X1' r c := by
  by_cases hv : valid i r
  · unfold wgt
    rw [hL hv]
  · rw [wgt_of_not_valid i X1 r c hv, wgt_of_not_valid i X1' r c hv]

theorem out2_congr (i : grid0.Coords) (X0 X0' : Vec Ideal S8192x128 .f32) (X1 X1' : Vec Ideal S8192 .i32)
    (P : Vec Ideal S1x128x128 .f32)
    (hX : ∀ (r : Fin 8192) (d : Fin 128), valid i r → X0 (ix2 r d) = X0' (ix2 r d))
    (hL : ∀ r : Fin 8192, valid i r → X1 (ix1 r) = X1' (ix1 r)) :
    out2 (F := Ideal) i X0 X1 P = out2 (F := Ideal) i X0' X1' P := by
  funext j
  obtain ⟨a, c, d, rfl⟩ : ∃ (a : Fin 1) (c d : Fin 128), j = ix3 a c d := ⟨j 0, j 1, j 2, eq_ix3 j⟩
  obtain rfl : a = 0 := Subsingleton.elim _ _
  rw [out2_apply, out2_apply]
  congr 1
  refine Finset.sum_congr rfl fun r _ => ?_
  by_cases hv : valid i r
  · rw [wgt_congr i X1 X1' r c (fun _ => hL r hv), hX r d hv]
  · rw [wgt_of_not_valid i X1 r c hv, wgt_of_not_valid i X1' r c hv, zero_mul, zero_mul]

theorem out3_congr (i : grid0.Coords) (X0 X0' : Vec Ideal S8192x128 .f32) (X1 X1' : Vec Ideal S8192 .i32)
    (P : Vec Ideal S1x128x128 .f32)
    (hX : ∀ (r : Fin 8192) (d : Fin 128), valid i r → X0 (ix2 r d) = X0' (ix2 r d))
    (hL : ∀ r : Fin 8192, valid i r → X1 (ix1 r) = X1' (ix1 r)) :
    out3 (F := Ideal) i X0 X1 P = out3 (F := Ideal) i X0' X1' P := by
  funext j
  obtain ⟨a, c, d, rfl⟩ : ∃ (a : Fin 1) (c d : Fin 128), j = ix3 a c d := ⟨j 0, j 1, j 2, eq_ix3 j⟩
  obtain rfl : a = 0 := Subsingleton.elim _ _
  rw [out3_apply, out3_apply]
  congr 1
  refine Finset.sum_congr rfl fun r _ => ?_
  by_cases hv : valid i r
  · rw [wgt_congr i X1 X1' r c (fun _ => hL r hv), hX r d hv]
  · rw [wgt_of_not_valid i X1 r c hv, wgt_of_not_valid i X1' r c hv, zero_mul, zero_mul]

theorem out4_congr (i : grid0.Coords) (X1 X1' : Vec Ideal S8192 .i32) (P : Vec Ideal S1x1x128 .f32)
    (hL : ∀ r : Fin 8192, valid i r → X1 (ix1 r) = X1' (ix1 r)) :
    out4 (F := Ideal) i X1 P = out4 (F := Ideal) i X1' P := by
  funext j
  obtain ⟨a, b, c, rfl⟩ : ∃ (a b : Fin 1) (c : Fin 128), j = ix3 a b c := ⟨j 0, j 1, j 2, eq_ix3 j⟩
  obtain rfl : a = 0 := Subsingleton.elim _ _
  obtain rfl : b = 0 := Subsingleton.elim _ _
  rw [out4_apply, out4_apply]
  congr 1
  exact Finset.sum_congr rfl fun r _ => wgt_congr i X1 X1' r c (hL r)

end Cert.KernelIdeal.PayVal

end
-- ==== Proof.Data.lean ====
import proofs.«410710_j31095563223418_2_alg».proof.Proof.PayVal
import proofs.«410710_j31095563223418_2_alg».proof.Proof.Gen.KernelIdeal.Frame
import Idealize.ShloMosaic.Lib.Pipeline.FrameSuffix

/-!
  The pipeline's proof data at the ideal instance.

  The grid has 124 points: core k runs points 62k … 62k+61, point p stages block min p 122 of the data and label
  arrays (8192 rows; block 122 has 576 rows inside the array, and point 123 stages it again with every row masked).
  After a fetch the rows of the staging buffer past the array's end hold anything; the body multiplies them by a zero
  weight, and at the ideal instance zero times anything is zero, so what the accumulators hold after each point is a
  function of the arrays alone: the blocks with their tail set to a fixed filler (xz, tz) give the same accumulators
  as the blocks with any tail.  The accumulators after point n are o2, o3, o4, by recursion on the point: a core's
  first point starts them from zero.
-/

set_option maxRecDepth 16384

noncomputable section

namespace Cert.KernelIdeal.Data

open Cert.KernelIdeal Cert.KernelIdeal.Gen Cert.KernelIdeal.Body Cert.KernelIdeal.PayVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule, decided over the grid -/

theorem coords_row : ∀ t : Fin cfg0.N, (grid0.coords t 0).val * 62 + (grid0.coords t 1).val = t.val :=
  (by decide +kernel : ∀ t : Fin grid0.N, (grid0.coords t 0).val * 62 + (grid0.coords t 1).val = t.val)

theorem coords_first : ∀ t : Fin cfg0.N, (grid0.coords t 1).val = 0 ↔ t.val % 62 = 0 :=
  (by decide +kernel : ∀ t : Fin grid0.N, (grid0.coords t 1).val = 0 ↔ t.val % 62 = 0)

/-- How many rows of the staged data block lie inside the array. -/
theorem xsize0_0 : ∀ t : Fin cfg0.N, win0_0.xsize (grid0.coords t) 0 = if t.val < 122 then 8192 else 576 :=
  (by decide +kernel : ∀ t : Fin grid0.N, win0_0.xsize (grid0.coords t) 0 = if t.val < 122 then 8192 else 576)
theorem xsize0_1 : ∀ t : Fin cfg0.N, win0_0.xsize (grid0.coords t) 1 = 128 :=
  (by decide +kernel : ∀ t : Fin grid0.N, win0_0.xsize (grid0.coords t) 1 = 128)
theorem xsize1_0 : ∀ t : Fin cfg0.N, win0_1.xsize (grid0.coords t) 0 = if t.val < 122 then 8192 else 576 :=
  (by decide +kernel : ∀ t : Fin grid0.N, win0_1.xsize (grid0.coords t) 0 = if t.val < 122 then 8192 else 576)

/-- The block index staged at point t. -/
theorem index0_0 : ∀ t : Fin cfg0.N, win0_0.index t 0 = min t.val 122 :=
  (by decide +kernel : ∀ t : Fin grid0.N, win0_0.index t 0 = min t.val 122)
theorem index0_1 : ∀ t : Fin cfg0.N, win0_0.index t 1 = 0 :=
  (by decide +kernel : ∀ t : Fin grid0.N, win0_0.index t 1 = 0)
theorem index1_0 : ∀ t : Fin cfg0.N, win0_1.index t 0 = min t.val 122 :=
  (by decide +kernel : ∀ t : Fin grid0.N, win0_1.index t 0 = min t.val 122)

/-! ## The staged blocks and the accumulators -/

/-- The data block staged at point t, the rows past the array's end at a fixed filler. -/
def xz (c : Dev nD) (t : Fin cfg0.N) : Vec Ideal S8192x128 .f32 :=
  win0_0.fill (grid0.coords t) (fun _ => Classical.arbitrary _) (iblk m c 0 t)
/-- The label block staged at point t, likewise. -/
def tz (c : Dev nD) (t : Fin cfg0.N) : Vec Ideal S8192 .i32 :=
  win0_1.fill (grid0.coords t) (fun _ => Classical.arbitrary _) (iblk m c 1 t)

/-- The three accumulators after point n. -/
def o2 (c : Dev nD) : (n : ℕ) → n < cfg0.N → Vec Ideal S1x128x128 .f32
  | 0, h => out2 (grid0.coords ⟨0, h⟩) (xz m c ⟨0, h⟩) (tz m c ⟨0, h⟩) (fun _ => Classical.arbitrary _)
  | n + 1, h => out2 (grid0.coords ⟨n + 1, h⟩) (xz m c ⟨n + 1, h⟩) (tz m c ⟨n + 1, h⟩) (o2 c n (Nat.lt_of_succ_lt h))
def o3 (c : Dev nD) : (n : ℕ) → n < cfg0.N → Vec Ideal S1x128x128 .f32
  | 0, h => out3 (grid0.coords ⟨0, h⟩) (xz m c ⟨0, h⟩) (tz m c ⟨0, h⟩) (fun _ => Classical.arbitrary _)
  | n + 1, h => out3 (grid0.coords ⟨n + 1, h⟩) (xz m c ⟨n + 1, h⟩) (tz m c ⟨n + 1, h⟩) (o3 c n (Nat.lt_of_succ_lt h))
def o4 (c : Dev nD) : (n : ℕ) → n < cfg0.N → Vec Ideal S1x1x128 .f32
  | 0, h => out4 (grid0.coords ⟨0, h⟩) (tz m c ⟨0, h⟩) (fun _ => Classical.arbitrary _)
  | n + 1, h => out4 (grid0.coords ⟨n + 1, h⟩) (tz m c ⟨n + 1, h⟩) (o4 c n (Nat.lt_of_succ_lt h))

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => xz m c t
    | ⟨1, _⟩ => tz m c t
    | ⟨2, _⟩ => o2 m c t.val t.isLt
    | ⟨3, _⟩ => o3 m c t.val t.isLt
    | ⟨4, _⟩ => o4 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xz m c t := by dsimp only [dats]
theorem after0_1 (c : Dev nD) (t : Fin cfg0.N) : (dats m 0 c).after 1 t = tz m c t := by dsimp only [dats]
theorem after0_2 (c : Dev nD) (t : Fin cfg0.N) : (dats m 0 c).after 2 t = o2 m c t.val t.isLt := by dsimp only [dats]
theorem after0_3 (c : Dev nD) (t : Fin cfg0.N) : (dats m 0 c).after 3 t = o3 m c t.val t.isLt := by dsimp only [dats]
theorem after0_4 (c : Dev nD) (t : Fin cfg0.N) : (dats m 0 c).after 4 t = o4 m c t.val t.isLt := by dsimp only [dats]

/-! ## What the body finds in each buffer -/

/-- The data buffer holds its block wherever the fetch filled it, fetched at this point or not. -/
theorem before0_0 (c : Dev nD) (t : Fin cfg0.N) (d) :
    (dats m 0 c).before 0 t d = win0_0.fill (grid0.coords t) d (iblk m c 0 t) := by
  rw [Pipeline.Dat.before_in_eq_fetched (dats m 0 c) 0 rfl (fun _ => rfl)
    (fun t t' h => by funext a; show Pipeline.Clip.of (win0_0.index t a) _ _ = Pipeline.Clip.of (win0_0.index t' a) _ _; rw [h])
    (fun t => by rw [after0_0]; exact win0_0.cut_fill _ _ _)]
  rfl

theorem before0_1 (c : Dev nD) (t : Fin cfg0.N) (d) :
    (dats m 0 c).before 1 t d = win0_1.fill (grid0.coords t) d (iblk m c 1 t) := by
  rw [Pipeline.Dat.before_in_eq_fetched (dats m 0 c) 1 rfl (fun _ => rfl)
    (fun t t' h => by funext a; show Pipeline.Clip.of (win0_1.index t a) _ _ = Pipeline.Clip.of (win0_1.index t' a) _ _; rw [h])
    (fun t => by rw [after0_1]; exact win0_1.cut_fill _ _ _)]
  rfl

end Cert.KernelIdeal.Data

end
-- ==== Proof.Oblig.lean ====
import proofs.«410710_j31095563223418_2_alg».proof.Proof.Data

/-!
  The body obligation of the pipeline's proof data: at every grid point the body, handed the two staged blocks (with
  any tail past the array's end) and the accumulators as the point before left them, leaves the accumulators at o2,
  o3, o4 of the point.
-/

set_option maxRecDepth 16384

noncomputable section

namespace Cert.KernelIdeal.Data

open Cert.KernelIdeal Cert.KernelIdeal.Gen Cert.KernelIdeal.Body Cert.KernelIdeal.PayVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## A row inside the array is a row the fetch fills -/

theorem valid_lt (t : Fin cfg0.N) (r : Fin 8192) (hv : valid (grid0.coords t) r) :
    r.val < (if t.val < 122 then 8192 else 576) := by
  have hN : t.val < 124 := lt_of_lt_of_eq t.isLt N_0
  unfold valid at hv; rw [coords_row t] at hv
  split <;> omega

theorem fill0_valid (t : Fin cfg0.N) (d d' : win0_0.block.Idx → Elt Ideal .f32) (g : (win0_0.xblock (grid0.coords t)).Idx → Elt Ideal .f32)
    (r : Fin 8192) (col : Fin 128) (hv : valid (grid0.coords t) r) :
    win0_0.fill (grid0.coords t) d g (ix2 r col) = win0_0.fill (grid0.coords t) d' g (ix2 r col) := by
  have hm : win0_0.moved (grid0.coords t) (ix2 r col) = true := (win0_0.moved_iff _ _).mpr fun a => by
    match a with
    | ⟨0, _⟩ => show r.val < win0_0.xsize (grid0.coords t) 0; rw [xsize0_0]; exact valid_lt t r hv
    | ⟨1, _⟩ => show col.val < win0_0.xsize (grid0.coords t) 1; rw [xsize0_1]; exact col.isLt
  unfold Window.fill; rw [dif_pos hm, dif_pos hm]

theorem fill1_valid (t : Fin cfg0.N) (d d' : win0_1.block.Idx → Elt Ideal .i32) (g : (win0_1.xblock (grid0.coords t)).Idx → Elt Ideal .i32)
    (r : Fin 8192) (hv : valid (grid0.coords t) r) :
    win0_1.fill (grid0.coords t) d g (ix1 r) = win0_1.fill (grid0.coords t) d' g (ix1 r) := by
  have hm : win0_1.moved (grid0.coords t) (ix1 r) = true := (win0_1.moved_iff _ _).mpr fun a => by
    match a with
    | ⟨0, _⟩ => show r.val < win0_1.xsize (grid0.coords t) 0; rw [xsize1_0]; exact valid_lt t r hv
  unfold Window.fill; rw [dif_pos hm, dif_pos hm]

/-! ## A core's first point starts its accumulators afresh -/

theorem out2_first (i : grid0.Coords) (h : (i 1).val = 0) (X0 : Vec Ideal S8192x128 .f32) (X1 : Vec Ideal S8192 .i32) (P P' : Vec Ideal S1x128x128 .f32) :
    out2 i X0 X1 P = out2 i X0 X1 P' := by unfold out2 start2; rw [if_pos h, if_pos h]
theorem out3_first (i : grid0.Coords) (h : (i 1).val = 0) (X0 : Vec Ideal S8192x128 .f32) (X1 : Vec Ideal S8192 .i32) (P P' : Vec Ideal S1x128x128 .f32) :
    out3 i X0 X1 P = out3 i X0 X1 P' := by unfold out3 start3; rw [if_pos h, if_pos h]
theorem out4_first (i : grid0.Coords) (h : (i 1).val = 0) (X1 : Vec Ideal S8192 .i32) (P P' : Vec Ideal S1x1x128 .f32) :
    out4 i X1 P = out4 i X1 P' := by unfold out4 start4; rw [if_pos h, if_pos h]

/-- The accumulator after point t, from the staged blocks with ANY tail and, past a core's first point, the
    accumulator the point before left. -/
theorem o2_step (c : Dev nD) (t : Fin cfg0.N) (d0 : win0_0.block.Idx → Elt Ideal .f32) (d1 : win0_1.block.Idx → Elt Ideal .i32)
    (P : Vec Ideal S1x128x128 .f32)
    (hP : ¬t.val % 62 = 0 → P = o2 m c (t.val - 1) (Nat.lt_of_le_of_lt (Nat.sub_le _ _) t.isLt)) :
    out2 (grid0.coords t) (win0_0.fill (grid0.coords t) d0 (iblk m c 0 t)) (win0_1.fill (grid0.coords t) d1 (iblk m c 1 t)) P
      = o2 m c t.val t.isLt := by
  have hc := out2_congr (grid0.coords t) (win0_0.fill (grid0.coords t) d0 (iblk m c 0 t)) (xz m c t)
    (win0_1.fill (grid0.coords t) d1 (iblk m c 1 t)) (tz m c t) P
    (fun r col hv => fill0_valid t _ _ _ r col hv) (fun r hv => fill1_valid t _ _ _ r hv)
  rw [hc]
  obtain ⟨n, hn⟩ := t
  cases n with
  | zero => exact out2_first _ ((coords_first ⟨0, hn⟩).mpr rfl) _ _ _ _
  | succ n =>
    show _ = out2 _ _ _ (o2 m c n _)
    by_cases h0 : (n + 1) % 62 = 0
    · exact out2_first _ ((coords_first ⟨n + 1, hn⟩).mpr h0) _ _ _ _
    · rw [hP h0]; rfl

theorem o3_step (c : Dev nD) (t : Fin cfg0.N) (d0 : win0_0.block.Idx → Elt Ideal .f32) (d1 : win0_1.block.Idx → Elt Ideal .i32)
    (P : Vec Ideal S1x128x128 .f32)
    (hP : ¬t.val % 62 = 0 → P = o3 m c (t.val - 1) (Nat.lt_of_le_of_lt (Nat.sub_le _ _) t.isLt)) :
    out3 (grid0.coords t) (win0_0.fill (grid0.coords t) d0 (iblk m c 0 t)) (win0_1.fill (grid0.coords t) d1 (iblk m c 1 t)) P
      = o3 m c t.val t.isLt := by
  have hc := out3_congr (grid0.coords t) (win0_0.fill (grid0.coords t) d0 (iblk m c 0 t)) (xz m c t)
    (win0_1.fill (grid0.coords t) d1 (iblk m c 1 t)) (tz m c t) P
    (fun r col hv => fill0_valid t _ _ _ r col hv) (fun r hv => fill1_valid t _ _ _ r hv)
  rw [hc]
  obtain ⟨n, hn⟩ := t
  cases n with
  | zero => exact out3_first _ ((coords_first ⟨0, hn⟩).mpr rfl) _ _ _ _
  | succ n =>
    show _ = out3 _ _ _ (o3 m c n _)
    by_cases h0 : (n + 1) % 62 = 0
    · exact out3_first _ ((coords_first ⟨n + 1, hn⟩).mpr h0) _ _ _ _
    · rw [hP h0]; rfl

theorem o4_step (c : Dev nD) (t : Fin cfg0.N) (d1 : win0_1.block.Idx → Elt Ideal .i32)
    (P : Vec Ideal S1x1x128 .f32)
    (hP : ¬t.val % 62 = 0 → P = o4 m c (t.val - 1) (Nat.lt_of_le_of_lt (Nat.sub_le _ _) t.isLt)) :
    out4 (grid0.coords t) (win0_1.fill (grid0.coords t) d1 (iblk m c 1 t)) P = o4 m c t.val t.isLt := by
  have hc := out4_congr (grid0.coords t) (win0_1.fill (grid0.coords t) d1 (iblk m c 1 t)) (tz m c t) P
    (fun r hv => fill1_valid t _ _ _ r hv)
  rw [hc]
  obtain ⟨n, hn⟩ := t
  cases n with
  | zero => exact out4_first _ ((coords_first ⟨0, hn⟩).mpr rfl) _ _ _
  | succ n =>
    show _ = out4 _ _ (o4 m c n _)
    by_cases h0 : (n + 1) % 62 = 0
    · exact out4_first _ ((coords_first ⟨n + 1, hn⟩).mpr h0) _ _ _
    · rw [hP h0]; rfl

/-! ## What the body finds in the accumulators' buffers -/

theorem tlt (t : Fin cfg0.N) : t.val < 124 := lt_of_lt_of_eq t.isLt N_0

/-- At a core's first point an accumulator's buffer holds anything: it is fresh, or was just written back. -/
theorem before_first (c : Dev nD) (w : Fin cfg0.W) (hw : (cfg0.win w).isOut = true)
    (hfl : ∀ u : Fin cfg0.N, (cfg0.win w).flush u = true ↔ u.val % 62 = 61)
    (t : Fin cfg0.N) (h0 : t.val % 62 = 0) (d) : (dats m 0 c).before w t d = d := by
  have hN := tlt t
  refine Pipeline.Dat.before_out_reset (dats m 0 c) w hw t ?_ d
  by_cases ht : t.val = 0
  · exact .inl ht
  · exact .inr ⟨ht, (hfl _).mpr (by show (t.val - 1) % 62 = 61; omega)⟩

/-- At a later point it holds what the point before left. -/
theorem before_later (c : Dev nD) (w : Fin cfg0.W) (hw : (cfg0.win w).isOut = true)
    (hfl : ∀ u : Fin cfg0.N, (cfg0.win w).flush u = true ↔ u.val % 62 = 61)
    (hclip : ∀ (i : cfg0.grid.Coords) a, (cfg0.win w).clip i a = none)
    (t : Fin cfg0.N) (h0 : ¬t.val % 62 = 0) (d) :
    (dats m 0 c).before w t d = (dats m 0 c).after w ⟨t.val - 1, Nat.lt_of_le_of_lt (Nat.sub_le _ _) t.isLt⟩ := by
  have hN := tlt t
  exact Pipeline.Dat.before_out_kept (dats m 0 c) w hw t (by omega)
    (Bool.eq_false_iff.mpr fun h => by have := (hfl _).mp h; dsimp only at this; omega) (fun _ => rfl) hclip d

/-! ## The body at a grid point -/

set_option maxHeartbeats 1000000 in
theorem sound_pt (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := Ideal)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ (∃ d, owns (c : Thread nD τ) (st0_1 t) fullShare (win0_1.fill (grid0.coords t) d (win0_1.cut (grid0.coords t) ((dats m 0 c).after 1 t))))
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t))) := by
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1]
  have e2 := o2_step m c t d0 d1 ((dats m 0 c).before 2 t d2) (fun h0 => by
    rw [before_later m c 2 rfl flush0_2 (fun _ _ => rfl) t h0 d2]; exact after0_2 m c _)
  have e3 := o3_step m c t d0 d1 ((dats m 0 c).before 3 t d3) (fun h0 => by
    rw [before_later m c 3 rfl flush0_3 (fun _ _ => rfl) t h0 d3]; exact after0_3 m c _)
  have e4 := o4_step m c t d1 ((dats m 0 c).before 4 t d4) (fun h0 => by
    rw [before_later m c 4 rfl flush0_4 (fun _ _ => rfl) t h0 d4]; exact after0_4 m c _)
  rw [after0_0, after0_1, after0_2, after0_3, after0_4,
    show win0_0.cut (grid0.coords t) (xz m c t) = iblk m c 0 t from win0_0.cut_fill _ _ _,
    show win0_1.cut (grid0.coords t) (tz m c t) = iblk m c 1 t from win0_1.cut_fill _ _ _,
    ← e2, ← e3, ← e4]
  iapply (sound_body (F := Ideal) c Set.univ (grid0.coords t) _ _ _ _ _ _ _ _ _ _
    (win0_0.fill (grid0.coords t) d0 (iblk m c 0 t)) (win0_1.fill (grid0.coords t) d1 (iblk m c 1 t))
    ((dats m 0 c).before 2 t d2) ((dats m 0 c).before 3 t d3) ((dats m 0 c).before 4 t d4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexact H4

/-- The library's body obligation, at every point. -/
theorem body_obligation (c : Dev nD) : BodyObligationLoose (dats m 0 c) (defs₀ (F := Ideal)) Variants.none () Set.univ := fun t => by
  rw [bigSep_W0, bigSep_W0]
  exact sound_pt m c t

/-! ## The run -/

set_option backward.isDefEq.respectTransparency.types false in
/-- Every weakly fair execution of the program terminates; every array of the pipeline ends at what the proof data
    computes, every other buffer at what the host operations after the region make of those. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Data

end
-- ==== Proof.Spec.lean ====
import Idealize.ShloMosaic.PureOps.Ideal
import Idealize.ShloMosaic.Lib.ValueIdx

/-!
  The mathematics both programs compute, stated once over the two argument arrays: x, a million rows of 128
  extended reals, and t, a label word per row.  For a class c the rows labelled c are rowsOf t c; cnt counts
  them, sm sums their entries column by column and sq sums the squares.  One program subtracts each class's
  column means before squaring (refVal), the other uses the sum-of-squares identity
  ∑ (xₙ - s/k)² = ∑ xₙ² - s²/k (kerVal).  Rows whose label is no class in 0 … 9 belong to no rowsOf t c
  with c < 10 and so enter neither value.
-/

noncomputable section

open scoped BigOperators

namespace Cert.Spec

open Idealize.ShloMosaic Idealize.ShloMosaic.ValueIdx

/-- The data array's shape, the label array's, and the result's. -/
abbrev SX : Shape := ⟨2, ![1000000, 128]⟩
abbrev ST : Shape := ⟨1, ![1000000]⟩
abbrev SR : Shape := ⟨1, ![1]⟩

variable (x : SX.Idx → EReal) (t : ST.Idx → BitVec 32)

/-- The rows labelled with class c: the label word is the 32-bit word of c. -/
def rowsOf (c : ℕ) : Finset (Fin 1000000) := Finset.univ.filter fun n => t (ix1 n) = BitVec.ofNat 32 c

/-- How many rows class c has, as an extended real. -/
def cnt (c : ℕ) : EReal := ∑ _n ∈ rowsOf t c, (1 : EReal)

/-- Column d summed over the rows of class c. -/
def sm (c : ℕ) (d : Fin 128) : EReal := ∑ n ∈ rowsOf t c, x (ix2 n d)

/-- The squares of column d summed over the rows of class c. -/
def sq (c : ℕ) (d : Fin 128) : EReal := ∑ n ∈ rowsOf t c, x (ix2 n d) * x (ix2 n d)

/-- The number of classes, as the float word both programs divide by (the word of 10.0, kept unevaluated). -/
def ten : EReal := Ideal.ofBits .f32 0x41200000#32

/-- One class's trace by the sum-of-squares identity: (∑ x² - (∑ x)² / max k 1) / (k - 1), summed over the columns. -/
def kerTrace (c : ℕ) : EReal :=
  Ideal.div ((∑ d : Fin 128, sq x t c d) - Ideal.div (∑ d : Fin 128, sm x t c d * sm x t c d) (max (cnt t c) 1)) (cnt t c - 1)

/-- The mean of the ten traces, by the sum-of-squares identity. -/
def kerVal : EReal := Ideal.div (∑ c : Fin 10, kerTrace x t c.val) ten

/-- One class's trace with the column means subtracted first: (∑ (x - s/k)²) / (k - 1), summed over the columns. -/
def refTrace (c : ℕ) : EReal :=
  Ideal.div (∑ d : Fin 128, ∑ n ∈ rowsOf t c,
      (x (ix2 n d) - Ideal.div (sm x t c d) (cnt t c)) * (x (ix2 n d) - Ideal.div (sm x t c d) (cnt t c)))
    (cnt t c - 1)

/-- The mean of the ten traces, means subtracted first. -/
def refVal : EReal := Ideal.div (∑ c : Fin 10, refTrace x t c.val) ten

end Cert.Spec

end
-- ==== Proof.Rows.lean ====
import proofs.«410710_j31095563223418_2_alg».proof.Proof.Spec
import Idealize.ShloMosaic.Lib.ValueIdx
import Mathlib.Algebra.BigOperators.Group.Finset.Basic
import Mathlib.Algebra.BigOperators.Group.Finset.Piecewise
import Mathlib.Data.EReal.Basic

/-!
  Finite-sum bookkeeping for rows processed in blocks.  A million rows are cut into blocks of 8192 rows
  (block p holds the rows n with n / 8192 = p), and 62 consecutive blocks make one core's share (core k holds
  the rows n with n / 507904 = k, 507904 = 62 * 8192).  Within a block a staging row r stands for the row
  p * 8192 + r when that is below a million and for nothing otherwise.  A sum over the staging rows of a block,
  weighted by the indicator "the label is the class's word and the row exists", is the sum over the class's rows
  that lie in the block; the blocks of a core together give the core's rows.
-/

open scoped BigOperators

namespace Cert.Rows

open Cert.Spec Idealize.ShloMosaic Idealize.ShloMosaic.ValueIdx

/-- One block's weighted sum is the sum over the class's rows that lie in the block: r ↦ p * 8192 + r is a
bijection from the staging rows carrying weight one onto those rows, with inverse n ↦ n % 8192. -/
theorem block_sum (t : ST.Idx → BitVec 32) (f : Fin 1000000 → EReal) (p : ℕ) (c : ℕ)
    (lab : Fin 8192 → BitVec 32) (X : Fin 8192 → EReal)
    (hlab : ∀ (r : Fin 8192) (h : p * 8192 + r.val < 1000000), lab r = t (ix1 ⟨p * 8192 + r.val, h⟩))
    (hX : ∀ (r : Fin 8192) (h : p * 8192 + r.val < 1000000), X r = f ⟨p * 8192 + r.val, h⟩) :
    (∑ r : Fin 8192,
        (if lab r = BitVec.ofNat 32 c ∧ p * 8192 + r.val < 1000000 then (1 : EReal) else 0) * X r)
      = ∑ n ∈ (rowsOf t c).filter (fun n => n.val / 8192 = p), f n := by
  -- the weight times the entry is the entry where the weight is one, and nothing elsewhere
  have h1 : ∀ r : Fin 8192,
      (if lab r = BitVec.ofNat 32 c ∧ p * 8192 + r.val < 1000000 then (1 : EReal) else 0) * X r
        = if lab r = BitVec.ofNat 32 c ∧ p * 8192 + r.val < 1000000 then X r else 0 := by
    intro r
    split_ifs
    · exact one_mul _
    · exact zero_mul _
  rw [Finset.sum_congr rfl (fun r _ => h1 r), ← Finset.sum_filter]
  refine Finset.sum_bij'
    (fun r hr => ⟨p * 8192 + r.val, (Finset.mem_filter.mp hr).2.2⟩)
    (fun n _ => ⟨n.val % 8192, Nat.mod_lt _ (by norm_num)⟩) ?_ ?_ ?_ ?_ ?_
  · intro r hr
    have hr' := (Finset.mem_filter.mp hr).2
    have hlt := r.isLt
    simp only [rowsOf, Finset.mem_filter, Finset.mem_univ, true_and]
    refine ⟨?_, ?_⟩
    · rw [← hlab r hr'.2]
      exact hr'.1
    · omega
  · intro n hn
    simp only [rowsOf, Finset.mem_filter, Finset.mem_univ, true_and] at hn ⊢
    have hn1 := hn.1
    have hn2 := hn.2
    have hlt := n.isLt
    have hb : p * 8192 + n.val % 8192 < 1000000 := by omega
    have he : (⟨p * 8192 + n.val % 8192, hb⟩ : Fin 1000000) = n := Fin.ext (by simp only []; omega)
    refine ⟨?_, hb⟩
    rw [hlab ⟨n.val % 8192, Nat.mod_lt _ (by norm_num)⟩ hb, he]
    exact hn1
  · intro r hr
    have hlt := r.isLt
    apply Fin.ext
    simp only []
    omega
  · intro n hn
    simp only [rowsOf, Finset.mem_filter, Finset.mem_univ, true_and] at hn
    have hn2 := hn.2
    apply Fin.ext
    simp only []
    omega
  · intro r hr
    exact hX r (Finset.mem_filter.mp hr).2.2

/-- The same with the weight alone: the weights of a block count the class's rows in it. -/
theorem block_count (t : ST.Idx → BitVec 32) (p : ℕ) (c : ℕ) (lab : Fin 8192 → BitVec 32)
    (hlab : ∀ (r : Fin 8192) (h : p * 8192 + r.val < 1000000), lab r = t (ix1 ⟨p * 8192 + r.val, h⟩)) :
    (∑ r : Fin 8192,
        (if lab r = BitVec.ofNat 32 c ∧ p * 8192 + r.val < 1000000 then (1 : EReal) else 0))
      = ∑ _n ∈ (rowsOf t c).filter (fun n => n.val / 8192 = p), (1 : EReal) := by
  have h := block_sum t (fun _ => (1 : EReal)) p c lab (fun _ => (1 : EReal)) hlab (fun _ _ => rfl)
  simp only [mul_one] at h
  exact h

/-- A core's 62 blocks together are the core's rows: a row of core k lies in exactly one block 62 * k + j
with j < 62, namely j = n / 8192 - 62 * k. -/
theorem core_sum (S : Finset (Fin 1000000)) (f : Fin 1000000 → EReal) (k : ℕ) :
    (∑ j ∈ Finset.range 62, ∑ n ∈ S.filter (fun n => n.val / 8192 = 62 * k + j), f n)
      = ∑ n ∈ S.filter (fun n => n.val / 507904 = k), f n := by
  have hmaps : ∀ n ∈ S.filter (fun n : Fin 1000000 => n.val / 507904 = k),
      (fun n : Fin 1000000 => n.val / 8192 - 62 * k) n ∈ Finset.range 62 := by
    intro n hn
    have h := (Finset.mem_filter.mp hn).2
    simp only [Finset.mem_range]
    omega
  rw [← Finset.sum_fiberwise_of_maps_to hmaps f]
  refine Finset.sum_congr rfl ?_
  intro j hj
  have hj' := Finset.mem_range.mp hj
  rw [Finset.filter_filter]
  refine Finset.sum_congr (Finset.filter_congr ?_) (fun _ _ => rfl)
  intro n _
  constructor
  · intro h
    omega
  · intro h
    omega

end Cert.Rows
-- ==== Proof.Sums.lean ====
import proofs.«410710_j31095563223418_2_alg».proof.Proof.Data
import proofs.«410710_j31095563223418_2_alg».proof.Proof.Rows

/-!
  A core's accumulators after its last point, as sums over the core's rows.

  At each point the accumulator gains the weighted sum over the staging rows; a staging row inside the array is the
  array's row point*8192 + r, so one point's gain is the sum over the class's rows in that block of 8192 rows, and a
  core's 62 points together give the sum over the class's rows of the core.
-/

set_option maxRecDepth 16384

noncomputable section

open scoped BigOperators

namespace Cert.KernelIdeal.Data

open Cert.KernelIdeal Cert.KernelIdeal.Gen Cert.KernelIdeal.Body Cert.KernelIdeal.PayVal Cert.Spec
open Idealize.ShloMosaic Idealize.ShloMosaic.TcCoe Idealize.ShloMosaic.ValueIdx
open Idealize.SL Idealize.SL.Sem

variable (m : (ℓ : Loc nD τ sig) → Buf (Elt Ideal) ℓ)

/-- The two argument arrays on core c. -/
abbrev xarr (c : Dev nD) : SX.Idx → EReal := m ((c.tc : Thread nD τ).loc main_arg0)
abbrev tarr (c : Dev nD) : ST.Idx → BitVec 32 := m ((c.tc : Thread nD τ).loc main_arg1)

/-- What the block-read lemmas say: a staging row inside the array holds the array's row. -/
def XRead (c : Dev nD) : Prop := ∀ (p : Fin cfg0.N) (r : Fin 8192) (d : Fin 128) (h : p.val * 8192 + r.val < 1000000),
  xz m c p (ix2 r d) = xarr m c (ix2 ⟨p.val * 8192 + r.val, h⟩ d)
def TRead (c : Dev nD) : Prop := ∀ (p : Fin cfg0.N) (r : Fin 8192) (h : p.val * 8192 + r.val < 1000000),
  tz m c p (ix1 r) = tarr m c (ix1 ⟨p.val * 8192 + r.val, h⟩)

theorem wgt_eq (p : Fin cfg0.N) (X1 : Vec Ideal S8192 .i32) (r : Fin 8192) (cl : Fin 128) :
    wgt (grid0.coords p) X1 r cl = if X1 (ix1 r) = BitVec.ofNat 32 cl.val ∧ p.val * 8192 + r.val < 1000000 then 1 else 0 := by
  unfold wgt; rw [coords_row p]

/-! ## One point's gain -/

theorem gain2 (c : Dev nD) (hx : XRead m c) (ht : TRead m c) (p : Fin cfg0.N) (cl d : Fin 128) :
    (∑ r : Fin 8192, wgt (grid0.coords p) (tz m c p) r cl * xz m c p (ix2 r d))
      = ∑ n ∈ (rowsOf (tarr m c) cl.val).filter (fun n => n.val / 8192 = p.val), xarr m c (ix2 n d) := by
  simp only [wgt_eq]
  exact Cert.Rows.block_sum (tarr m c) (fun n => xarr m c (ix2 n d)) p.val cl.val (fun r => tz m c p (ix1 r))
    (fun r => xz m c p (ix2 r d)) (fun r h => ht p r h) (fun r h => hx p r d h)

theorem gain3 (c : Dev nD) (hx : XRead m c) (ht : TRead m c) (p : Fin cfg0.N) (cl d : Fin 128) :
    (∑ r : Fin 8192, wgt (grid0.coords p) (tz m c p) r cl * (xz m c p (ix2 r d) * xz m c p (ix2 r d)))
      = ∑ n ∈ (rowsOf (tarr m c) cl.val).filter (fun n => n.val / 8192 = p.val), xarr m c (ix2 n d) * xarr m c (ix2 n d) := by
  simp only [wgt_eq]
  exact Cert.Rows.block_sum (tarr m c) (fun n => xarr m c (ix2 n d) * xarr m c (ix2 n d)) p.val cl.val (fun r => tz m c p (ix1 r))
    (fun r => xz m c p (ix2 r d) * xz m c p (ix2 r d)) (fun r h => ht p r h) (fun r h => by rw [hx p r d h])

theorem gain4 (c : Dev nD) (ht : TRead m c) (p : Fin cfg0.N) (cl : Fin 128) :
    (∑ r : Fin 8192, wgt (grid0.coords p) (tz m c p) r cl)
      = ∑ _n ∈ (rowsOf (tarr m c) cl.val).filter (fun n => n.val / 8192 = p.val), (1 : EReal) := by
  simp only [wgt_eq]
  exact Cert.Rows.block_count (tarr m c) p.val cl.val (fun r => tz m c p (ix1 r)) (fun r h => ht p r h)

/-! ## Accumulator o2: point by point, then a core's run of points -/

theorem o2_zero (c : Dev nD) (h : 0 < cfg0.N) (cl d : Fin 128) :
    o2 m c 0 h (ix3 0 cl d) = 0 + ∑ r : Fin 8192, wgt (grid0.coords ⟨0, h⟩) (tz m c ⟨0, h⟩) r cl * xz m c ⟨0, h⟩ (ix2 r d) := by
  show out2 (grid0.coords ⟨0, h⟩) (xz m c ⟨0, h⟩) (tz m c ⟨0, h⟩) (fun _ => Classical.arbitrary _) (ix3 0 cl d) = _
  rw [out2_apply, start2_first _ _ ((coords_first ⟨0, h⟩).mpr rfl)]

theorem o2_succ (c : Dev nD) (n : ℕ) (h : n + 1 < cfg0.N) (cl d : Fin 128) :
    o2 m c (n + 1) h (ix3 0 cl d)
      = (if (n + 1) % 62 = 0 then 0 else o2 m c n (Nat.lt_of_succ_lt h) (ix3 0 cl d)) + ∑ r : Fin 8192, wgt (grid0.coords ⟨n + 1, h⟩) (tz m c ⟨n + 1, h⟩) r cl * xz m c ⟨n + 1, h⟩ (ix2 r d) := by
  show out2 (grid0.coords ⟨n + 1, h⟩) (xz m c ⟨n + 1, h⟩) (tz m c ⟨n + 1, h⟩) (o2 m c n (Nat.lt_of_succ_lt h)) (ix3 0 cl d) = _
  rw [out2_apply]
  by_cases h0 : (n + 1) % 62 = 0
  · rw [start2_first _ _ ((coords_first ⟨n + 1, h⟩).mpr h0), if_pos h0]
  · rw [start2_later _ _ (fun e => h0 ((coords_first ⟨n + 1, h⟩).mp e)), if_neg h0]

theorem o2_first (c : Dev nD) (n : ℕ) (h : n < cfg0.N) (h0 : n % 62 = 0) (cl d : Fin 128) :
    o2 m c n h (ix3 0 cl d) = ∑ r : Fin 8192, wgt (grid0.coords ⟨n, h⟩) (tz m c ⟨n, h⟩) r cl * xz m c ⟨n, h⟩ (ix2 r d) := by
  cases n with
  | zero => exact (o2_zero m c h cl d).trans (zero_add _)
  | succ q => exact (o2_succ m c q h cl d).trans (by rw [if_pos h0, zero_add])

theorem o2_run (c : Dev nD) (hx : XRead m c) (ht : TRead m c) (k : ℕ) (hk : k < 2) (cl d : Fin 128) :
    ∀ (j : ℕ) (hj : j < 62),
      o2 m c (62 * k + j) (by have := N_0; show 62 * k + j < grid0.N; omega) (ix3 0 cl d)
        = ∑ j' ∈ Finset.range (j + 1), ∑ n ∈ (rowsOf (tarr m c) cl.val).filter (fun n => n.val / 8192 = 62 * k + j'), xarr m c (ix2 n d)
  | 0, hj => by
    have hN : 62 * k + 0 < cfg0.N := by have := N_0; show 62 * k + 0 < grid0.N; omega
    rw [Finset.sum_range_one]
    refine (o2_first m c (62 * k + 0) hN (by omega) cl d).trans ?_
    exact gain2 m c hx ht ⟨62 * k + 0, hN⟩ cl d
  | j + 1, hj => by
    have hN : 62 * k + j + 1 < cfg0.N := by have := N_0; show 62 * k + j + 1 < grid0.N; omega
    have e := o2_succ m c (62 * k + j) hN cl d
    rw [if_neg (by omega), gain2 m c hx ht ⟨62 * k + j + 1, hN⟩ cl d, o2_run c hx ht k hk cl d j (by omega)] at e
    rw [Finset.sum_range_succ (n := j + 1)]
    exact e

/-- After the core's last point: the sum over the class's rows of the core. -/
theorem o2_last (c : Dev nD) (hx : XRead m c) (ht : TRead m c) (k : ℕ) (hk : k < 2) (cl d : Fin 128) :
    o2 m c (62 * k + 61) (by have := N_0; show 62 * k + 61 < grid0.N; omega) (ix3 0 cl d)
      = ∑ n ∈ (rowsOf (tarr m c) cl.val).filter (fun n => n.val / 507904 = k), xarr m c (ix2 n d) := by
  rw [o2_run m c hx ht k hk cl d 61 (by omega)]
  exact Cert.Rows.core_sum (rowsOf (tarr m c) cl.val) (fun n => xarr m c (ix2 n d)) k

/-! ## Accumulator o3: point by point, then a core's run of points -/

theorem o3_zero (c : Dev nD) (h : 0 < cfg0.N) (cl d : Fin 128) :
    o3 m c 0 h (ix3 0 cl d) = 0 + ∑ r : Fin 8192, wgt (grid0.coords ⟨0, h⟩) (tz m c ⟨0, h⟩) r cl * (xz m c ⟨0, h⟩ (ix2 r d) * xz m c ⟨0, h⟩ (ix2 r d)) := by
  show out3 (grid0.coords ⟨0, h⟩) (xz m c ⟨0, h⟩) (tz m c ⟨0, h⟩) (fun _ => Classical.arbitrary _) (ix3 0 cl d) = _
  rw [out3_apply, start3_first _ _ ((coords_first ⟨0, h⟩).mpr rfl)]

theorem o3_succ (c : Dev nD) (n : ℕ) (h : n + 1 < cfg0.N) (cl d : Fin 128) :
    o3 m c (n + 1) h (ix3 0 cl d)
      = (if (n + 1) % 62 = 0 then 0 else o3 m c n (Nat.lt_of_succ_lt h) (ix3 0 cl d)) + ∑ r : Fin 8192, wgt (grid0.coords ⟨n + 1, h⟩) (tz m c ⟨n + 1, h⟩) r cl * (xz m c ⟨n + 1, h⟩ (ix2 r d) * xz m c ⟨n + 1, h⟩ (ix2 r d)) := by
  show out3 (grid0.coords ⟨n + 1, h⟩) (xz m c ⟨n + 1, h⟩) (tz m c ⟨n + 1, h⟩) (o3 m c n (Nat.lt_of_succ_lt h)) (ix3 0 cl d) = _
  rw [out3_apply]
  by_cases h0 : (n + 1) % 62 = 0
  · rw [start3_first _ _ ((coords_first ⟨n + 1, h⟩).mpr h0), if_pos h0]
  · rw [start3_later _ _ (fun e => h0 ((coords_first ⟨n + 1, h⟩).mp e)), if_neg h0]

theorem o3_first (c : Dev nD) (n : ℕ) (h : n < cfg0.N) (h0 : n % 62 = 0) (cl d : Fin 128) :
    o3 m c n h (ix3 0 cl d) = ∑ r : Fin 8192, wgt (grid0.coords ⟨n, h⟩) (tz m c ⟨n, h⟩) r cl * (xz m c ⟨n, h⟩ (ix2 r d) * xz m c ⟨n, h⟩ (ix2 r d)) := by
  cases n with
  | zero => exact (o3_zero m c h cl d).trans (zero_add _)
  | succ q => exact (o3_succ m c q h cl d).trans (by rw [if_pos h0, zero_add])

theorem o3_run (c : Dev nD) (hx : XRead m c) (ht : TRead m c) (k : ℕ) (hk : k < 2) (cl d : Fin 128) :
    ∀ (j : ℕ) (hj : j < 62),
      o3 m c (62 * k + j) (by have := N_0; show 62 * k + j < grid0.N; omega) (ix3 0 cl d)
        = ∑ j' ∈ Finset.range (j + 1), ∑ n ∈ (rowsOf (tarr m c) cl.val).filter (fun n => n.val / 8192 = 62 * k + j'), xarr m c (ix2 n d) * xarr m c (ix2 n d)
  | 0, hj => by
    have hN : 62 * k + 0 < cfg0.N := by have := N_0; show 62 * k + 0 < grid0.N; omega
    rw [Finset.sum_range_one]
    refine (o3_first m c (62 * k + 0) hN (by omega) cl d).trans ?_
    exact gain3 m c hx ht ⟨62 * k + 0, hN⟩ cl d
  | j + 1, hj => by
    have hN : 62 * k + j + 1 < cfg0.N := by have := N_0; show 62 * k + j + 1 < grid0.N; omega
    have e := o3_succ m c (62 * k + j) hN cl d
    rw [if_neg (by omega), gain3 m c hx ht ⟨62 * k + j + 1, hN⟩ cl d, o3_run c hx ht k hk cl d j (by omega)] at e
    rw [Finset.sum_range_succ (n := j + 1)]
    exact e

/-- After the core's last point: the sum over the class's rows of the core. -/
theorem o3_last (c : Dev nD) (hx : XRead m c) (ht : TRead m c) (k : ℕ) (hk : k < 2) (cl d : Fin 128) :
    o3 m c (62 * k + 61) (by have := N_0; show 62 * k + 61 < grid0.N; omega) (ix3 0 cl d)
      = ∑ n ∈ (rowsOf (tarr m c) cl.val).filter (fun n => n.val / 507904 = k), xarr m c (ix2 n d) * xarr m c (ix2 n d) := by
  rw [o3_run m c hx ht k hk cl d 61 (by omega)]
  exact Cert.Rows.core_sum (rowsOf (tarr m c) cl.val) (fun n => xarr m c (ix2 n d) * xarr m c (ix2 n d)) k

/-! ## Accumulator o4: point by point, then a core's run of points -/

theorem o4_zero (c : Dev nD) (h : 0 < cfg0.N) (cl : Fin 128) :
    o4 m c 0 h (ix3 0 0 cl) = 0 + ∑ r : Fin 8192, wgt (grid0.coords ⟨0, h⟩) (tz m c ⟨0, h⟩) r cl := by
  show out4 (grid0.coords ⟨0, h⟩) (tz m c ⟨0, h⟩) (fun _ => Classical.arbitrary _) (ix3 0 0 cl) = _
  rw [out4_apply, start4_first _ _ ((coords_first ⟨0, h⟩).mpr rfl)]

theorem o4_succ (c : Dev nD) (n : ℕ) (h : n + 1 < cfg0.N) (cl : Fin 128) :
    o4 m c (n + 1) h (ix3 0 0 cl)
      = (if (n + 1) % 62 = 0 then 0 else o4 m c n (Nat.lt_of_succ_lt h) (ix3 0 0 cl)) + ∑ r : Fin 8192, wgt (grid0.coords ⟨n + 1, h⟩) (tz m c ⟨n + 1, h⟩) r cl := by
  show out4 (grid0.coords ⟨n + 1, h⟩) (tz m c ⟨n + 1, h⟩) (o4 m c n (Nat.lt_of_succ_lt h)) (ix3 0 0 cl) = _
  rw [out4_apply]
  by_cases h0 : (n + 1) % 62 = 0
  · rw [start4_first _ _ ((coords_first ⟨n + 1, h⟩).mpr h0), if_pos h0]
  · rw [start4_later _ _ (fun e => h0 ((coords_first ⟨n + 1, h⟩).mp e)), if_neg h0]

theorem o4_first (c : Dev nD) (n : ℕ) (h : n < cfg0.N) (h0 : n % 62 = 0) (cl : Fin 128) :
    o4 m c n h (ix3 0 0 cl) = ∑ r : Fin 8192, wgt (grid0.coords ⟨n, h⟩) (tz m c ⟨n, h⟩) r cl := by
  cases n with
  | zero => exact (o4_zero m c h cl).trans (zero_add _)
  | succ q => exact (o4_succ m c q h cl).trans (by rw [if_pos h0, zero_add])

theorem o4_run (c : Dev nD) (ht : TRead m c) (k : ℕ) (hk : k < 2) (cl : Fin 128) :
    ∀ (j : ℕ) (hj : j < 62),
      o4 m c (62 * k + j) (by have := N_0; show 62 * k + j < grid0.N; omega) (ix3 0 0 cl)
        = ∑ j' ∈ Finset.range (j + 1), ∑ n ∈ (rowsOf (tarr m c) cl.val).filter (fun n => n.val / 8192 = 62 * k + j'), (1 : EReal)
  | 0, hj => by
    have hN : 62 * k + 0 < cfg0.N := by have := N_0; show 62 * k + 0 < grid0.N; omega
    rw [Finset.sum_range_one]
    refine (o4_first m c (62 * k + 0) hN (by omega) cl).trans ?_
    exact gain4 m c ht ⟨62 * k + 0, hN⟩ cl
  | j + 1, hj => by
    have hN : 62 * k + j + 1 < cfg0.N := by have := N_0; show 62 * k + j + 1 < grid0.N; omega
    have e := o4_succ m c (62 * k + j) hN cl
    rw [if_neg (by omega), gain4 m c ht ⟨62 * k + j + 1, hN⟩ cl, o4_run c ht k hk cl j (by omega)] at e
    rw [Finset.sum_range_succ (n := j + 1)]
    exact e

/-- After the core's last point: the sum over the class's rows of the core. -/
theorem o4_last (c : Dev nD) (ht : TRead m c) (k : ℕ) (hk : k < 2) (cl : Fin 128) :
    o4 m c (62 * k + 61) (by have := N_0; show 62 * k + 61 < grid0.N; omega) (ix3 0 0 cl)
      = ∑ n ∈ (rowsOf (tarr m c) cl.val).filter (fun n => n.val / 507904 = k), (1 : EReal) := by
  rw [o4_run m c ht k hk cl 61 (by omega)]
  exact Cert.Rows.core_sum (rowsOf (tarr m c) cl.val) (fun n => (1 : EReal)) k

end Cert.KernelIdeal.Data

end
-- ==== Proof.BlockRead.lean ====
import proofs.«410710_j31095563223418_2_alg».proof.Proof.Data

/-!
  Reading a staged block inside the array.

  Point p stages the block of 8192 rows whose first row is min p 122 * 8192.  A row r of that block with
  p * 8192 + r < 1000000 has p ≤ 122, so the block's first row is p * 8192, and r is below the part of the block that lies
  inside the array (all 8192 rows for p < 122, 576 rows for p = 122): the filled block takes that row from the array,
  at row p * 8192 + r.
-/

set_option maxRecDepth 16384

noncomputable section

namespace Cert.KernelIdeal.Data

open Cert.KernelIdeal Cert.KernelIdeal.Gen Cert.KernelIdeal.Body Cert.KernelIdeal.PayVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A row of the staged data block that lies inside the array holds the array's entry. -/
theorem xz_apply (c : Dev nD) (p : Fin cfg0.N) (r : Fin 8192) (d : Fin 128) (h : p.val * 8192 + r.val < 1000000) :
    xz m c p (ix2 r d) = m ((c.tc : Thread nD τ).loc main_arg0) (ix2 ⟨p.val * 8192 + r.val, h⟩ d) := by
  have hp : p.val < 124 := lt_of_lt_of_eq p.isLt N_0
  -- the row is below the block's extent inside the array, so the fetch fills it
  have hm : win0_0.moved (grid0.coords p) (ix2 r d) = true :=
    (win0_0.moved_iff _ _).mpr fun a => match a with
      | ⟨0, _⟩ => by
          show r.val < win0_0.xsize (grid0.coords p) 0
          rw [xsize0_0]; split <;> omega
      | ⟨1, _⟩ => by
          show d.val < win0_0.xsize (grid0.coords p) 1
          rw [xsize0_1]; exact d.isLt
  unfold xz Window.fill
  rw [dif_pos hm]
  unfold iblk
  rw [View.read_apply]
  show V m c main_arg0 (((cfg0.win 0).blk p).view.emb fun a => ⟨(ix2 r d a).val, _⟩) = _
  rw [V_main_arg0]
  -- the block's coordinate in the array: block index times block size plus the coordinate inside the block
  refine congrArg _ ?_
  funext a; apply Fin.ext
  match a with
  | ⟨0, _⟩ =>
      show win0_0.index p (0 : Fin 2) * 8192 + 1 * r.val = p.val * 8192 + r.val
      rw [index0_0]; omega
  | ⟨1, _⟩ =>
      show win0_0.index p (1 : Fin 2) * 128 + 1 * d.val = d.val
      rw [index0_1]; omega

/-- A row of the staged label block that lies inside the array holds the array's entry. -/
theorem tz_apply (c : Dev nD) (p : Fin cfg0.N) (r : Fin 8192) (h : p.val * 8192 + r.val < 1000000) :
    tz m c p (ix1 r) = m ((c.tc : Thread nD τ).loc main_arg1) (ix1 ⟨p.val * 8192 + r.val, h⟩) := by
  have hp : p.val < 124 := lt_of_lt_of_eq p.isLt N_0
  have hm : win0_1.moved (grid0.coords p) (ix1 r) = true :=
    (win0_1.moved_iff _ _).mpr fun a => match a with
      | ⟨0, _⟩ => by
          show r.val < win0_1.xsize (grid0.coords p) 0
          rw [xsize1_0]; split <;> omega
  unfold tz Window.fill
  rw [dif_pos hm]
  unfold iblk
  rw [View.read_apply]
  show V m c main_arg1 (((cfg0.win 1).blk p).view.emb fun a => ⟨(ix1 r a).val, _⟩) = _
  rw [V_main_arg1]
  refine congrArg _ ?_
  funext a; apply Fin.ext
  match a with
  | ⟨0, _⟩ =>
      show win0_1.index p (0 : Fin 1) * 8192 + 1 * r.val = p.val * 8192 + r.val
      rw [index1_0]; omega

end Cert.KernelIdeal.Data

end
-- ==== Proof.ArrAt.lean ====
import proofs.«410710_j31095563223418_2_alg».proof.Proof.Data
import Idealize.ShloMosaic.Lib.Pipeline.Value
import Idealize.ShloMosaic.Lib.ValueIdx

/-!
  The result arrays after the run, read at an element.

  Core k runs points 62k … 62k+61 and writes its three accumulators back once, at its last point 62k+61, into block k
  of the three result arrays.  Block k of a result array is the slab of first coordinate k, so the array read at
  (k, cl, d) is the accumulator left at point 62k+61, read at (0, cl, d).
-/

set_option maxRecDepth 16384

noncomputable section

namespace Cert.KernelIdeal.Data

open Cert.KernelIdeal Cert.KernelIdeal.Gen Cert.KernelIdeal.Body Cert.KernelIdeal.PayVal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- A core's last point is a point of the grid. -/
theorem last_lt_nat (n : ℕ) (h : n < 2) : 62 * n + 61 < cfg0.N := by
  have := N_0; show 62 * n + 61 < grid0.N; omega

theorem last_lt (k : Fin 2) : 62 * k.val + 61 < cfg0.N := last_lt_nat _ k.isLt

/-- A core's last point writes the accumulators back. -/
theorem last_mod (k : Fin 2) : (62 * k.val + 61) % 62 = 61 := by omega

/-! ## The first result array -/

/-- The block index of the first result window: the core, then zero on the two inner axes. -/
theorem index2 : ∀ t : Fin cfg0.N, win0_2.index t 0 = t.val / 62 ∧ win0_2.index t 1 = 0 ∧ win0_2.index t 2 = 0 :=
  (by decide +kernel : ∀ t : Fin grid0.N, win0_2.index t 0 = t.val / 62 ∧ win0_2.index t 1 = 0 ∧ win0_2.index t 2 = 0)

/-- The accumulator at equal points and equal indices. -/
theorem o2_congr (c : Dev nD) {n n' : ℕ} (h : n < cfg0.N) (h' : n' < cfg0.N) {i i' : S1x128x128.Idx}
    (e : n = n') (ei : i = i') : o2 m c n h i = o2 m c n' h' i' := by
  subst e; subst ei; rfl

/-- The first result array after the run: slab k is the accumulator core k left at its last point. -/
def G2 (c : Dev nD) : S2x128x128.Idx → Elt Ideal .f32 := fun j =>
  o2 m c (62 * (j 0).val + 61) (last_lt_nat _ (j 0).isLt) (ix3 (0 : Fin 1) (⟨(j 1).val, (j 1).isLt⟩ : Fin 128) (⟨(j 2).val, (j 2).isLt⟩ : Fin 128))

/-- What a writing point t = 62k + 61 writes back is slab k of that array: an element y of the block sits in the
    array at first coordinate k + y 0 = k and at its own inner coordinates. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2]
  have h61 : t.val % 62 = 61 := (flush0_2 t).mp hf
  obtain ⟨e0, e1, e2⟩ := index2 t
  funext y
  rw [View.read_apply]
  show o2 m c t.val t.isLt y = G2 m c ((win0_2.rect t).emb y)
  have r0 : (((win0_2.rect t).emb y 0 : Fin 2) : ℕ) = win0_2.index t 0 * 1 + (y 0 : ℕ) := win0_2.rect_emb_val t y 0
  have r1 : (((win0_2.rect t).emb y 1 : Fin 128) : ℕ) = win0_2.index t 1 * 128 + (y 1 : ℕ) := win0_2.rect_emb_val t y 1
  have r2 : (((win0_2.rect t).emb y 2 : Fin 128) : ℕ) = win0_2.index t 2 * 128 + (y 2 : ℕ) := win0_2.rect_emb_val t y 2
  rw [e0] at r0; rw [e1] at r1; rw [e2] at r2
  have y0 : ((y 0 : Fin 1) : ℕ) < 1 := (y 0).isLt
  have y1 : ((y 1 : Fin 128) : ℕ) < 128 := (y 1).isLt
  unfold G2
  apply o2_congr
  · rw [r0]; omega
  · funext a
    apply Fin.ext
    match a with
    | ⟨0, _⟩ => show ((y 0 : Fin 1) : ℕ) = 0; omega
    | ⟨1, _⟩ => show ((y 1 : Fin 128) : ℕ) = (((win0_2.rect t).emb y 1 : Fin 128) : ℕ); rw [r1]; omega
    | ⟨2, _⟩ => show ((y 2 : Fin 128) : ℕ) = (((win0_2.rect t).emb y 2 : Fin 128) : ℕ); rw [r2]; omega

/-- The first result array, read at an element of slab k, is the accumulator core k left at its last point. -/
theorem arr2_apply (c : Dev nD) (k : Fin 2) (cl d : Fin 128) :
    (dats m 0 c).arrAt 2 cfg0.N (ix3 k cl d) = o2 m c (62 * k.val + 61) (last_lt k) (ix3 0 cl d) := by
  have hk : k.val < 2 := k.isLt
  have hcl : cl.val < 128 := cl.isLt
  have hd : d.val < 128 := d.isLt
  have hf : (cfg0.win 2).flush ⟨62 * k.val + 61, last_lt k⟩ = true := (flush0_2 _).mpr (last_mod k)
  have hi : (ix3 k cl d : S2x128x128.Idx) ∈ ((cfg0.win 2).blk ⟨62 * k.val + 61, last_lt k⟩).view.set := by
    show _ ∈ ((View.whole main_v0_0).slice (win0_2.rect ⟨62 * k.val + 61, last_lt k⟩)).set
    rw [View.set_slice_whole, Rect.mem_set_unit]
    obtain ⟨e0, e1, e2⟩ := index2 ⟨62 * k.val + 61, last_lt k⟩
    have e0' : win0_2.index ⟨62 * k.val + 61, last_lt k⟩ 0 = k.val := by
      rw [e0]; show (62 * k.val + 61) / 62 = k.val; omega
    intro a
    match a with
    | ⟨0, _⟩ =>
      show win0_2.index ⟨62 * k.val + 61, last_lt k⟩ 0 * 1 ≤ k.val ∧ k.val < win0_2.index ⟨62 * k.val + 61, last_lt k⟩ 0 * 1 + 1
      rw [e0']; omega
    | ⟨1, _⟩ =>
      show win0_2.index ⟨62 * k.val + 61, last_lt k⟩ 1 * 128 ≤ cl.val ∧ cl.val < win0_2.index ⟨62 * k.val + 61, last_lt k⟩ 1 * 128 + 128
      rw [e1]; omega
    | ⟨2, _⟩ =>
      show win0_2.index ⟨62 * k.val + 61, last_lt k⟩ 2 * 128 ≤ d.val ∧ d.val < win0_2.index ⟨62 * k.val + 61, last_lt k⟩ 2 * 128 + 128
      rw [e2]; omega
  exact (dats m 0 c).arrAt_apply_of_mem 2 (G2 m c) (fun t hf => flushed2_eq m c t hf) cfg0.N
    ⟨62 * k.val + 61, last_lt k⟩ _ (last_lt k) hf hi

/-! ## The second result array -/

/-- The block index of the second result window: the core, then zero on the two inner axes. -/
theorem index3 : ∀ t : Fin cfg0.N, win0_3.index t 0 = t.val / 62 ∧ win0_3.index t 1 = 0 ∧ win0_3.index t 2 = 0 :=
  (by decide +kernel : ∀ t : Fin grid0.N, win0_3.index t 0 = t.val / 62 ∧ win0_3.index t 1 = 0 ∧ win0_3.index t 2 = 0)

/-- The accumulator at equal points and equal indices. -/
theorem o3_congr (c : Dev nD) {n n' : ℕ} (h : n < cfg0.N) (h' : n' < cfg0.N) {i i' : S1x128x128.Idx}
    (e : n = n') (ei : i = i') : o3 m c n h i = o3 m c n' h' i' := by
  subst e; subst ei; rfl

/-- The second result array after the run: slab k is the accumulator core k left at its last point. -/
def G3 (c : Dev nD) : S2x128x128.Idx → Elt Ideal .f32 := fun j =>
  o3 m c (62 * (j 0).val + 61) (last_lt_nat _ (j 0).isLt) (ix3 (0 : Fin 1) (⟨(j 1).val, (j 1).isLt⟩ : Fin 128) (⟨(j 2).val, (j 2).isLt⟩ : Fin 128))

/-- What a writing point t = 62k + 61 writes back is slab k of that array: an element y of the block sits in the
    array at first coordinate k + y 0 = k and at its own inner coordinates. -/
theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  have h61 : t.val % 62 = 61 := (flush0_3 t).mp hf
  obtain ⟨e0, e1, e2⟩ := index3 t
  funext y
  rw [View.read_apply]
  show o3 m c t.val t.isLt y = G3 m c ((win0_3.rect t).emb y)
  have r0 : (((win0_3.rect t).emb y 0 : Fin 2) : ℕ) = win0_3.index t 0 * 1 + (y 0 : ℕ) := win0_3.rect_emb_val t y 0
  have r1 : (((win0_3.rect t).emb y 1 : Fin 128) : ℕ) = win0_3.index t 1 * 128 + (y 1 : ℕ) := win0_3.rect_emb_val t y 1
  have r2 : (((win0_3.rect t).emb y 2 : Fin 128) : ℕ) = win0_3.index t 2 * 128 + (y 2 : ℕ) := win0_3.rect_emb_val t y 2
  rw [e0] at r0; rw [e1] at r1; rw [e2] at r2
  have y0 : ((y 0 : Fin 1) : ℕ) < 1 := (y 0).isLt
  have y1 : ((y 1 : Fin 128) : ℕ) < 128 := (y 1).isLt
  unfold G3
  apply o3_congr
  · rw [r0]; omega
  · funext a
    apply Fin.ext
    match a with
    | ⟨0, _⟩ => show ((y 0 : Fin 1) : ℕ) = 0; omega
    | ⟨1, _⟩ => show ((y 1 : Fin 128) : ℕ) = (((win0_3.rect t).emb y 1 : Fin 128) : ℕ); rw [r1]; omega
    | ⟨2, _⟩ => show ((y 2 : Fin 128) : ℕ) = (((win0_3.rect t).emb y 2 : Fin 128) : ℕ); rw [r2]; omega

/-- The second result array, read at an element of slab k, is the accumulator core k left at its last point. -/
theorem arr3_apply (c : Dev nD) (k : Fin 2) (cl d : Fin 128) :
    (dats m 0 c).arrAt 3 cfg0.N (ix3 k cl d) = o3 m c (62 * k.val + 61) (last_lt k) (ix3 0 cl d) := by
  have hk : k.val < 2 := k.isLt
  have hcl : cl.val < 128 := cl.isLt
  have hd : d.val < 128 := d.isLt
  have hf : (cfg0.win 3).flush ⟨62 * k.val + 61, last_lt k⟩ = true := (flush0_3 _).mpr (last_mod k)
  have hi : (ix3 k cl d : S2x128x128.Idx) ∈ ((cfg0.win 3).blk ⟨62 * k.val + 61, last_lt k⟩).view.set := by
    show _ ∈ ((View.whole main_v0_1).slice (win0_3.rect ⟨62 * k.val + 61, last_lt k⟩)).set
    rw [View.set_slice_whole, Rect.mem_set_unit]
    obtain ⟨e0, e1, e2⟩ := index3 ⟨62 * k.val + 61, last_lt k⟩
    have e0' : win0_3.index ⟨62 * k.val + 61, last_lt k⟩ 0 = k.val := by
      rw [e0]; show (62 * k.val + 61) / 62 = k.val; omega
    intro a
    match a with
    | ⟨0, _⟩ =>
      show win0_3.index ⟨62 * k.val + 61, last_lt k⟩ 0 * 1 ≤ k.val ∧ k.val < win0_3.index ⟨62 * k.val + 61, last_lt k⟩ 0 * 1 + 1
      rw [e0']; omega
    | ⟨1, _⟩ =>
      show win0_3.index ⟨62 * k.val + 61, last_lt k⟩ 1 * 128 ≤ cl.val ∧ cl.val < win0_3.index ⟨62 * k.val + 61, last_lt k⟩ 1 * 128 + 128
      rw [e1]; omega
    | ⟨2, _⟩ =>
      show win0_3.index ⟨62 * k.val + 61, last_lt k⟩ 2 * 128 ≤ d.val ∧ d.val < win0_3.index ⟨62 * k.val + 61, last_lt k⟩ 2 * 128 + 128
      rw [e2]; omega
  exact (dats m 0 c).arrAt_apply_of_mem 3 (G3 m c) (fun t hf => flushed3_eq m c t hf) cfg0.N
    ⟨62 * k.val + 61, last_lt k⟩ _ (last_lt k) hf hi

/-! ## The third result array -/

/-- The block index of the third result window: the core, then zero on the two inner axes. -/
theorem index4 : ∀ t : Fin cfg0.N, win0_4.index t 0 = t.val / 62 ∧ win0_4.index t 1 = 0 ∧ win0_4.index t 2 = 0 :=
  (by decide +kernel : ∀ t : Fin grid0.N, win0_4.index t 0 = t.val / 62 ∧ win0_4.index t 1 = 0 ∧ win0_4.index t 2 = 0)

/-- The accumulator at equal points and equal indices. -/
theorem o4_congr (c : Dev nD) {n n' : ℕ} (h : n < cfg0.N) (h' : n' < cfg0.N) {i i' : S1x1x128.Idx}
    (e : n = n') (ei : i = i') : o4 m c n h i = o4 m c n' h' i' := by
  subst e; subst ei; rfl

/-- The third result array after the run: slab k is the accumulator core k left at its last point. -/
def G4 (c : Dev nD) : S2x1x128.Idx → Elt Ideal .f32 := fun j =>
  o4 m c (62 * (j 0).val + 61) (last_lt_nat _ (j 0).isLt) (ix3 (0 : Fin 1) (0 : Fin 1) (⟨(j 2).val, (j 2).isLt⟩ : Fin 128))

/-- What a writing point t = 62k + 61 writes back is slab k of that array: an element y of the block sits in the
    array at first coordinate k + y 0 = k and at its own inner coordinates. -/
theorem flushed4_eq (c : Dev nD) (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  have h61 : t.val % 62 = 61 := (flush0_4 t).mp hf
  obtain ⟨e0, e1, e2⟩ := index4 t
  funext y
  rw [View.read_apply]
  show o4 m c t.val t.isLt y = G4 m c ((win0_4.rect t).emb y)
  have r0 : (((win0_4.rect t).emb y 0 : Fin 2) : ℕ) = win0_4.index t 0 * 1 + (y 0 : ℕ) := win0_4.rect_emb_val t y 0
  have r1 : (((win0_4.rect t).emb y 1 : Fin 1) : ℕ) = win0_4.index t 1 * 1 + (y 1 : ℕ) := win0_4.rect_emb_val t y 1
  have r2 : (((win0_4.rect t).emb y 2 : Fin 128) : ℕ) = win0_4.index t 2 * 128 + (y 2 : ℕ) := win0_4.rect_emb_val t y 2
  rw [e0] at r0; rw [e1] at r1; rw [e2] at r2
  have y0 : ((y 0 : Fin 1) : ℕ) < 1 := (y 0).isLt
  have y1 : ((y 1 : Fin 1) : ℕ) < 1 := (y 1).isLt
  unfold G4
  apply o4_congr
  · rw [r0]; omega
  · funext a
    apply Fin.ext
    match a with
    | ⟨0, _⟩ => show ((y 0 : Fin 1) : ℕ) = 0; omega
    | ⟨1, _⟩ => show ((y 1 : Fin 1) : ℕ) = 0; omega
    | ⟨2, _⟩ => show ((y 2 : Fin 128) : ℕ) = (((win0_4.rect t).emb y 2 : Fin 128) : ℕ); rw [r2]; omega

/-- The third result array, read at an element of slab k, is the accumulator core k left at its last point. -/
theorem arr4_apply (c : Dev nD) (k : Fin 2) (cl : Fin 128) :
    (dats m 0 c).arrAt 4 cfg0.N (ix3 k 0 cl) = o4 m c (62 * k.val + 61) (last_lt k) (ix3 0 0 cl) := by
  have hk : k.val < 2 := k.isLt
  have hcl : cl.val < 128 := cl.isLt
  have hf : (cfg0.win 4).flush ⟨62 * k.val + 61, last_lt k⟩ = true := (flush0_4 _).mpr (last_mod k)
  have hi : (ix3 k 0 cl : S2x1x128.Idx) ∈ ((cfg0.win 4).blk ⟨62 * k.val + 61, last_lt k⟩).view.set := by
    show _ ∈ ((View.whole main_v0_2).slice (win0_4.rect ⟨62 * k.val + 61, last_lt k⟩)).set
    rw [View.set_slice_whole, Rect.mem_set_unit]
    obtain ⟨e0, e1, e2⟩ := index4 ⟨62 * k.val + 61, last_lt k⟩
    have e0' : win0_4.index ⟨62 * k.val + 61, last_lt k⟩ 0 = k.val := by
      rw [e0]; show (62 * k.val + 61) / 62 = k.val; omega
    intro a
    match a with
    | ⟨0, _⟩ =>
      show win0_4.index ⟨62 * k.val + 61, last_lt k⟩ 0 * 1 ≤ k.val ∧ k.val < win0_4.index ⟨62 * k.val + 61, last_lt k⟩ 0 * 1 + 1
      rw [e0']; omega
    | ⟨1, _⟩ =>
      show win0_4.index ⟨62 * k.val + 61, last_lt k⟩ 1 * 1 ≤ 0 ∧ 0 < win0_4.index ⟨62 * k.val + 61, last_lt k⟩ 1 * 1 + 1
      rw [e1]; omega
    | ⟨2, _⟩ =>
      show win0_4.index ⟨62 * k.val + 61, last_lt k⟩ 2 * 128 ≤ cl.val ∧ cl.val < win0_4.index ⟨62 * k.val + 61, last_lt k⟩ 2 * 128 + 128
      rw [e2]; omega
  exact (dats m 0 c).arrAt_apply_of_mem 4 (G4 m c) (fun t hf => flushed4_eq m c t hf) cfg0.N
    ⟨62 * k.val + 61, last_lt k⟩ _ (last_lt k) hf hi

end Cert.KernelIdeal.Data

end
-- ==== Proof.Tail.lean ====
import proofs.«410710_j31095563223418_2_alg».proof.Proof.Gen.KernelIdeal.Launch
import proofs.«410710_j31095563223418_2_alg».proof.Proof.Spec
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Idealize.ShloMosaic.Lib.IdealHost
import Mathlib.Algebra.BigOperators.Group.Finset.Basic
import Mathlib.Algebra.BigOperators.Fin
import Mathlib.Data.Finset.Filter

/-!
  The value the 29 host operations after the kernel region compute, and that value in the shared vocabulary.

  The region leaves three arrays: A2 and A3 of shape [2,128,128] hold, per core, class and column, partial sums of the
  entries and of their squares, and A4 of shape [2,1,128] holds, per core and class, partial counts.  The tail keeps
  the first ten classes, adds the two cores (S2, S3 and K), and returns the mean over the ten classes of
  (∑ S3 - (∑ S2 * S2) / max K 1) / (K - 1), the sums over the 128 columns: tailVal.  tail_result reads the 29
  operations at the one index of the result; tailVal_eq_kerVal says that when core k's partial sums run over the
  rows n with n / 507904 = k, the two parts of each class's rows together are all of them, so tailVal is kerVal.
-/

noncomputable section

open scoped BigOperators

namespace Cert.Tail

open Idealize.ShloMosaic Idealize.ShloMosaic.ValueIdx Idealize.ShloMosaic.TcCoe Idealize.SL.Sem
open Cert.KernelIdeal Cert.KernelIdeal.Gen

/-! ## The host's operations read at an index

Each lemma reads one operation of the tail at one index: a sum with initial value zero over the axis of the two
cores, over the 128 columns, over the ten classes; the slice to the first ten classes; the constant one. -/

/-- The class c of the first ten, as a row of a 128-row array. -/
abbrev cls (c : Fin 10) : Fin 128 := c.castLE (by decide)

section Stages

variable (hu : 0 < S_.numel)

/-- The sum over the two cores of a [2,10,128] array, from zero. -/
theorem sumCores3 (y : FVec Ideal S2x10x128 .f32) (hr : S2x10x128.ReducesTo [0] S10x128) (c : Fin 10) (d : Fin 128) :
    Host.reduceAdd (F := Ideal) y (constant (F := Ideal) S_ .f32 0x00000000#32) hr hu (ix2 c d)
      = y (ix3 0 c d) + y (ix3 1 c d) := by
  rw [hostReduceAdd_apply, Ideal.hostReduceAdd_single hr (by decide), constant_apply, Ideal.ofBits_zero_f32, zero_add]
  refine (Fin.sum_univ_two _).trans ?_
  refine congrArg₂ (· + ·) (congrArg y ?_) (congrArg y ?_) <;>
    exact funext fun a => Fin.ext (by match a with | ⟨0, _⟩ => rfl | ⟨1, _⟩ => rfl | ⟨2, _⟩ => rfl)

/-- The sum over the two cores of a [2,10] array, from zero. -/
theorem sumCores2 (y : FVec Ideal S2x10 .f32) (hr : S2x10.ReducesTo [0] S10) (c : Fin 10) :
    Host.reduceAdd (F := Ideal) y (constant (F := Ideal) S_ .f32 0x00000000#32) hr hu (ix1 c)
      = y (ix2 0 c) + y (ix2 1 c) := by
  rw [hostReduceAdd_apply, Ideal.hostReduceAdd_single hr (by decide), constant_apply, Ideal.ofBits_zero_f32, zero_add]
  refine (Fin.sum_univ_two _).trans ?_
  refine congrArg₂ (· + ·) (congrArg y ?_) (congrArg y ?_) <;>
    exact funext fun a => Fin.ext (by match a with | ⟨0, _⟩ => rfl | ⟨1, _⟩ => rfl)

/-- The sum over the 128 columns of a [10,128] array, from zero. -/
theorem sumCols (y : FVec Ideal S10x128 .f32) (hr : S10x128.ReducesTo [1] S10) (c : Fin 10) :
    Host.reduceAdd (F := Ideal) y (constant (F := Ideal) S_ .f32 0x00000000#32) hr hu (ix1 c)
      = ∑ d : Fin 128, y (ix2 c d) := by
  rw [hostReduceAdd_apply, Ideal.hostReduceAdd_single hr (by decide), constant_apply, Ideal.ofBits_zero_f32, zero_add]
  exact Finset.sum_congr rfl fun d _ =>
    congrArg y (funext fun a => Fin.ext (by match a with | ⟨0, _⟩ => rfl | ⟨1, _⟩ => rfl))

/-- The sum over the ten classes of a [10] array, from zero. -/
theorem sumClasses (y : FVec Ideal S10 .f32) (hr : S10.ReducesTo [0] S_) (i : S_.Idx) :
    Host.reduceAdd (F := Ideal) y (constant (F := Ideal) S_ .f32 0x00000000#32) hr hu i
      = ∑ c : Fin 10, y (ix1 c) := by
  rw [hostReduceAdd_apply, Ideal.hostReduceAdd_total hr (fun b => b.elim0), constant_apply, Ideal.ofBits_zero_f32, zero_add]
  exact (Equiv.sum_comp (idxEquiv1 (n := 10)).symm y).symm

/-- The first ten classes' counts of a [2,1,128] array, as a [2,10] array. -/
theorem cntRead (A : (⟨3, ![2, 1, 128]⟩ : Shape).Idx → EReal) (hs : S2x1x128.Slices ![0, 0, 0] S2x1x10)
    (hc : S2x1x10.ShapeCasts S2x10) (k : Fin 2) (c : Fin 10) :
    shapeCast S2x10 (extractStridedSlice S2x1x10 ![0, 0, 0] A hs) hc (ix2 k c) = A (ix3 k 0 (cls c)) := by
  refine (shapeCast_apply _ hc (ix2 k c) (ix3 k 0 c) ?_).trans ?_
  · rw [Shape.rowMajor_val_three, Shape.rowMajor_val_two]
    show (k.val * 1 + 0) * 10 + c.val = k.val * 10 + c.val
    omega
  · exact extractStridedSlice_apply _ A hs _ _ (fun a => by
      match a with
      | ⟨0, _⟩ => exact (Nat.zero_add _).symm
      | ⟨1, _⟩ => exact (Nat.zero_add _).symm
      | ⟨2, _⟩ => exact (Nat.zero_add _).symm)

/-- The constant one, broadcast. -/
theorem onesRead (hb : S_.BroadcastsInDim S10 (![] : Fin 0 → Fin S10.rank)) (j : S10.Idx) :
    broadcastInDim S10 ![] hb (constant (F := Ideal) S_ .f32 0x3F800000#32) j = (1 : EReal) := by
  rw [broadcastInDim_scalar_apply, constant_apply, Ideal.ofBits_one_f32]

/-- A scalar viewed as a one-element array. -/
theorem castScalar (x : S_.Idx → EReal) (hc : S_.ShapeCasts S1) (i : S1.Idx) : shapeCast S1 x hc i = x ix0 := by
  unfold shapeCast
  exact congrArg x (funext fun a => a.elim0)

end Stages

/-! ## The value the tail computes -/

/-- Class c's entry of column d summed over the two cores. -/
def coreSum (A : (⟨3, ![2, 128, 128]⟩ : Shape).Idx → EReal) (c : Fin 10) (d : Fin 128) : EReal :=
  A (ix3 0 (cls c) d) + A (ix3 1 (cls c) d)

/-- Class c's count summed over the two cores. -/
def coreCnt (A : (⟨3, ![2, 1, 128]⟩ : Shape).Idx → EReal) (c : Fin 10) : EReal :=
  A (ix3 0 0 (cls c)) + A (ix3 1 0 (cls c))

/-- The mean over the ten classes of (∑ S3 - (∑ S2²) / max K 1) / (K - 1), where S2, S3 and K are the two cores'
    partial sums added. -/
def tailVal (A2 A3 : (⟨3, ![2, 128, 128]⟩ : Shape).Idx → EReal) (A4 : (⟨3, ![2, 1, 128]⟩ : Shape).Idx → EReal) : EReal :=
  Ideal.div (∑ c : Fin 10,
    Ideal.div ((∑ d : Fin 128, coreSum A3 c d)
        - Ideal.div (∑ d : Fin 128, coreSum A2 c d * coreSum A2 c d) (max (coreCnt A4 c) 1))
      (coreCnt A4 c - 1)) Cert.Spec.ten

/-- The two cores' partial sums of the first ten classes added, as the tail computes them. -/
def sumsArr (A : FVec Ideal S2x128x128 .f32) : FVec Ideal S10x128 .f32 :=
  Host.reduceAdd (F := Ideal) (extractStridedSlice S2x10x128 ![0, 0, 0] A slices_S2x128x128_S2x10x128_0_0_0)
    (constant (F := Ideal) S_ .f32 0x00000000#32) reducesTo_S2x10x128_S10x128_d0 h_S_

theorem sumsArr_apply (A : FVec Ideal S2x128x128 .f32) (c : Fin 10) (d : Fin 128) :
    sumsArr A (ix2 c d) = coreSum A c d := by
  unfold sumsArr coreSum
  rw [sumCores3]
  exact congrArg₂ (· + ·) (slice3_axis1_apply 0 A _ 0 c d (cls c) (Nat.zero_add _).symm)
    (slice3_axis1_apply 0 A _ 1 c d (cls c) (Nat.zero_add _).symm)

/-- The two cores' partial counts of the first ten classes added, as the tail computes them. -/
def cntsArr (A : FVec Ideal S2x1x128 .f32) : FVec Ideal S10 .f32 :=
  Host.reduceAdd (F := Ideal)
    (shapeCast S2x10 (extractStridedSlice S2x1x10 ![0, 0, 0] A slices_S2x1x128_S2x1x10_0_0_0) shapeCasts_S2x1x10_S2x10)
    (constant (F := Ideal) S_ .f32 0x00000000#32) reducesTo_S2x10_S10_d0 h_S_

theorem cntsArr_apply (A : FVec Ideal S2x1x128 .f32) (c : Fin 10) : cntsArr A (ix1 c) = coreCnt A c := by
  unfold cntsArr coreCnt
  rw [sumCores2, cntRead, cntRead]

/-- The constant one per class. -/
def onesArr : FVec Ideal S10 .f32 := broadcastInDim S10 ![] bcast_S_S10 (constant (F := Ideal) S_ .f32 0x3F800000#32)

/-- The ten traces, as the tail computes them. -/
def tracesArr (A2 A3 : FVec Ideal S2x128x128 .f32) (A4 : FVec Ideal S2x1x128 .f32) : FVec Ideal S10 .f32 :=
  Host.divf
    (subf (Host.reduceAdd (F := Ideal) (sumsArr A3) (constant (F := Ideal) S_ .f32 0x00000000#32) reducesTo_S10x128_S10_d1 h_S_)
      (Host.divf
        (Host.reduceAdd (F := Ideal) (mulf (sumsArr A2) (sumsArr A2)) (constant (F := Ideal) S_ .f32 0x00000000#32)
          reducesTo_S10x128_S10_d1 h_S_)
        (maximumf (cntsArr A4) onesArr)))
    (subf (cntsArr A4) onesArr)

theorem tracesArr_apply (A2 A3 : FVec Ideal S2x128x128 .f32) (A4 : FVec Ideal S2x1x128 .f32) (c : Fin 10) :
    tracesArr A2 A3 A4 (ix1 c)
      = Ideal.div ((∑ d : Fin 128, coreSum A3 c d)
          - Ideal.div (∑ d : Fin 128, coreSum A2 c d * coreSum A2 c d) (max (coreCnt A4 c) 1))
        (coreCnt A4 c - 1) := by
  unfold tracesArr
  rw [hostDivf_apply, subf_apply, subf_apply, hostDivf_apply, maximumf_apply, sumCols, sumCols, cntsArr_apply]
  unfold onesArr
  rw [onesRead]
  simp only [mulf_apply, sumsArr_apply]

/-- The tail's result array. -/
def tailArr (A2 A3 : FVec Ideal S2x128x128 .f32) (A4 : FVec Ideal S2x1x128 .f32) : FVec Ideal S1 .f32 :=
  shapeCast S1
    (Host.divf
      (Host.reduceAdd (F := Ideal) (tracesArr A2 A3 A4) (constant (F := Ideal) S_ .f32 0x00000000#32) reducesTo_S10_S_d0 h_S_)
      (constant (F := Ideal) S_ .f32 0x41200000#32))
    shapeCasts_S_S1

theorem tailArr_apply (A2 A3 : FVec Ideal S2x128x128 .f32) (A4 : FVec Ideal S2x1x128 .f32) (i : S1.Idx) :
    tailArr A2 A3 A4 i = tailVal A2 A3 A4 := by
  unfold tailArr tailVal
  rw [castScalar, hostDivf_apply, sumClasses, constant_apply]
  simp only [tracesArr_apply]
  rfl

set_option maxHeartbeats 2000000 in
/-- After the tail's 29 operations the result buffer holds tailVal of the three arrays the kernel region wrote. -/
theorem tail_result (W : Valuation τ sig (Elt Ideal)) :
    StableHlo.after (Cert.KernelIdeal.Gen.hostOps1 (F := Ideal)) W (Proc.devRef .tc Cert.KernelIdeal.main_v20)
      = fun _ => tailVal (W (Proc.devRef .tc main_v0_0)) (W (Proc.devRef .tc main_v0_1)) (W (Proc.devRef .tc main_v0_2)) := by
  have h : StableHlo.after (Cert.KernelIdeal.Gen.hostOps1 (F := Ideal)) W (Proc.devRef .tc Cert.KernelIdeal.main_v20)
      = tailArr (W (Proc.devRef .tc main_v0_0)) (W (Proc.devRef .tc main_v0_1)) (W (Proc.devRef .tc main_v0_2)) := by
    show StableHlo.after hostOps1 _ (Proc.devRef .tc main_v20) = _
    after_results_simp
    rfl
  rw [h]
  exact funext fun i => tailArr_apply _ _ _ i

/-! ## The two cores' parts of a class's rows are all of them -/

/-- A sum over a set of rows splits by the core that owns the row: the rows below 507904, and the rest. -/
theorem sum_cores (s : Finset (Fin 1000000)) (f : Fin 1000000 → EReal) :
    (∑ n ∈ s.filter (fun n => n.val / 507904 = (0 : Fin 2).val), f n)
      + (∑ n ∈ s.filter (fun n => n.val / 507904 = (1 : Fin 2).val), f n) = ∑ n ∈ s, f n := by
  rw [← Finset.sum_filter_add_sum_filter_not s (fun n => n.val / 507904 = 0) f]
  refine congrArg₂ (· + ·) rfl (Finset.sum_congr (Finset.filter_congr fun n _ => ?_) fun _ _ => rfl)
  have := n.isLt
  show n.val / 507904 = 1 ↔ ¬ n.val / 507904 = 0
  omega

/-- When the three arrays hold the two cores' partial sums, squares' sums and counts, the tail's value is kerVal. -/
theorem tailVal_eq_kerVal (x : Cert.Spec.SX.Idx → EReal) (t : Cert.Spec.ST.Idx → BitVec 32)
    (A2 A3 : (⟨3, ![2, 128, 128]⟩ : Shape).Idx → EReal) (A4 : (⟨3, ![2, 1, 128]⟩ : Shape).Idx → EReal)
    (h2 : ∀ (k : Fin 2) (c d : Fin 128), A2 (ix3 k c d) = ∑ n ∈ (Cert.Spec.rowsOf t c.val).filter (fun n => n.val / 507904 = k.val), x (ix2 n d))
    (h3 : ∀ (k : Fin 2) (c d : Fin 128), A3 (ix3 k c d) = ∑ n ∈ (Cert.Spec.rowsOf t c.val).filter (fun n => n.val / 507904 = k.val), x (ix2 n d) * x (ix2 n d))
    (h4 : ∀ (k : Fin 2) (c : Fin 128), A4 (ix3 k 0 c) = ∑ _n ∈ (Cert.Spec.rowsOf t c.val).filter (fun n => n.val / 507904 = k.val), (1 : EReal)) :
    tailVal A2 A3 A4 = Cert.Spec.kerVal x t := by
  have e2 : ∀ (c : Fin 10) (d : Fin 128), coreSum A2 c d = Cert.Spec.sm x t c.val d := fun c d => by
    unfold coreSum
    rw [h2 0 (cls c) d, h2 1 (cls c) d]
    exact sum_cores _ _
  have e3 : ∀ (c : Fin 10) (d : Fin 128), coreSum A3 c d = Cert.Spec.sq x t c.val d := fun c d => by
    unfold coreSum
    rw [h3 0 (cls c) d, h3 1 (cls c) d]
    exact sum_cores _ _
  have e4 : ∀ c : Fin 10, coreCnt A4 c = Cert.Spec.cnt t c.val := fun c => by
    unfold coreCnt
    rw [h4 0 (cls c), h4 1 (cls c)]
    exact sum_cores _ _
  unfold tailVal Cert.Spec.kerVal Cert.Spec.kerTrace
  simp only [e2, e3, e4]

end Cert.Tail

end
-- ==== Proof.Final.lean ====
import proofs.«410710_j31095563223418_2_alg».proof.Proof.Oblig
import proofs.«410710_j31095563223418_2_alg».proof.Proof.Sums
import proofs.«410710_j31095563223418_2_alg».proof.Proof.BlockRead
import proofs.«410710_j31095563223418_2_alg».proof.Proof.ArrAt
import proofs.«410710_j31095563223418_2_alg».proof.Proof.Tail

/-!
  The program's result: the host operations after the region, applied to the three arrays the region leaves — each
  holding, per core, the sums over the core's rows of each class — give the mean of the ten class traces by the
  sum-of-squares identity.
-/

set_option maxRecDepth 16384

noncomputable section

open scoped BigOperators

namespace Cert.KernelIdeal.Data

open Cert.KernelIdeal Cert.KernelIdeal.Gen Cert.KernelIdeal.Body Cert.KernelIdeal.PayVal Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem xread (c : Dev nD) : XRead m c := fun p r d h => xz_apply m c p r d h
theorem tread (c : Dev nD) : TRead m c := fun p r h => tz_apply m c p r h

/-- The three arrays after the region, per core, class and column. -/
theorem arr2_sum (c : Dev nD) (k : Fin 2) (cl d : Fin 128) :
    (dats m 0 c).arrAt 2 cfg0.N (ix3 k cl d)
      = ∑ n ∈ (rowsOf (tarr m c) cl.val).filter (fun n => n.val / 507904 = k.val), xarr m c (ix2 n d) :=
  (arr2_apply m c k cl d).trans (o2_last m c (xread m c) (tread m c) k.val k.isLt cl d)
theorem arr3_sum (c : Dev nD) (k : Fin 2) (cl d : Fin 128) :
    (dats m 0 c).arrAt 3 cfg0.N (ix3 k cl d)
      = ∑ n ∈ (rowsOf (tarr m c) cl.val).filter (fun n => n.val / 507904 = k.val), xarr m c (ix2 n d) * xarr m c (ix2 n d) :=
  (arr3_apply m c k cl d).trans (o3_last m c (xread m c) (tread m c) k.val k.isLt cl d)
theorem arr4_sum (c : Dev nD) (k : Fin 2) (cl : Fin 128) :
    (dats m 0 c).arrAt 4 cfg0.N (ix3 k 0 cl)
      = ∑ _n ∈ (rowsOf (tarr m c) cl.val).filter (fun n => n.val / 507904 = k.val), (1 : EReal) :=
  (arr4_apply m c k cl).trans (o4_last m c (tread m c) k.val k.isLt cl)

/-- The result buffer after the host operations that follow the region. -/
theorem final_value (c : Dev nD) :
    Pipeline.afterTail₀ cfgs (dats m) 0 (V0 m) [hostOps1] c main_v20 = fun _ => kerVal (xarr m c) (tarr m c) := by
  unfold Pipeline.afterTail₀
  rw [show ([hostOps1] : List (List (HloOp τ sig (Elt Ideal)))).flatten = hostOps1 from List.flatten_singleton,
    Cert.Tail.tail_result]
  funext _
  refine Cert.Tail.tailVal_eq_kerVal (xarr m c) (tarr m c) _ _ _ (fun k cl d => ?_) (fun k cl d => ?_) (fun k cl => ?_)
  · exact (congrFun (Pipeline.withArrays_arr spec0 launch0.win.arr_inj c _ _ 2) _).trans (arr2_sum m c k cl d)
  · exact (congrFun (Pipeline.withArrays_arr spec0 launch0.win.arr_inj c _ _ 3) _).trans (arr3_sum m c k cl d)
  · exact (congrFun (Pipeline.withArrays_arr spec0 launch0.win.arr_inj c _ _ 4) _).trans (arr4_sum m c k cl)

/-- The result buffer is one of the buffers that bypass the region. -/
theorem v20_rest : main_v20 ∈ Pipeline.restRefs sig (cfgs 0).spec :=
  Pipeline.mem_restRefs_of main_v20 rfl (fun w => by fin_cases w <;> decide)

/-- The program's run, with its result named. -/
theorem run_value : θ_run defs (onTc (τ := τ) (main (F := Ideal))) ⟨m, fun _ => 0, ρ⟩ (fun r => ∀ c : Dev nD,
      r.2.mem ((c.tc : Thread nD τ).loc main_v20) = (fun _ => kerVal (xarr m c) (tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v20 v20_rest).trans (final_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Data

end
-- ==== Proof.RefValue.lean ====
import proofs.«410710_j31095563223418_2_alg».proof.Proof.Gen.ReferenceIdeal.Read
import proofs.«410710_j31095563223418_2_alg».proof.Proof.Spec
import Idealize.ShloMosaic.Lib.ValueIdx
import Idealize.ShloMosaic.Lib.IdealHost
import Idealize.ShloMosaic.PureOps.Ideal.Laws
import Idealize.ShloMosaic.Lib.StableHlo.Predicate

/-!
  The reference program computes Spec.refVal of its two arguments.

  Its three segment sums are scatters that add: an update lands on the operand index whose coordinates are the start
  (the row's label word read as a signed integer, not clamped) plus the window coordinate, and is dropped when that
  leaves the operand. So for a class c below ten the updates landing on row c are those of the rows whose label word
  is c's word: the scatter from zeros is the sum over Spec.rowsOf t c. The gather of the class means reads, at a row
  labelled c, the means' row c: the label is not negative, so it is not wrapped, and it is below ten, so it is not
  clamped. Rows of no class are dropped by the last scatter whatever the gather read for them. The rest is the
  program's elementwise operations, its two sums and its divisions, read at an index.
-/

noncomputable section

open scoped BigOperators

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-! ## A scatter's landing index, as equations on the coordinates -/

/-- An update lands on operand index i exactly when, on every axis, start plus window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hf a
      have hfa := congrArg (fun f : s.Idx => ((f a).val : Int)) (Option.some.inj hf)
      simp only at hfa
      rw [← hfa]
      exact (Int.toNat_of_nonneg (h a).1).symm
    · intro hv
      refine congrArg some (funext fun a => Fin.ext ?_)
      show (d.start j idx a + (d.window j a : Int)).toNat = (i a).val
      rw [hv a]
      exact Int.toNat_natCast _
  · rename_i h
    constructor
    · intro hf
      cases hf
    · intro hv
      exact absurd (fun a => by
        rw [hv a]
        exact ⟨Int.natCast_nonneg _, by exact_mod_cast (i a).isLt⟩) h

/-- The counts' scatter: its dimension numbers. -/
abbrev d1 : ScatterDims S10 S1000000x1 S1000000 := scatter_S10_S1000000x1_S1000000_n_0_0_1
/-- The rows' scatter: its dimension numbers. -/
abbrev d2 : ScatterDims S10x128 S1000000x1 S1000000x128 := scatter_S10x128_S1000000x1_S1000000x128_1_0_0_1

theorem d1_start (idx : IVec S1000000x1 32) (n : Fin 1000000) :
    d1.start (ix1 n) idx 0 = (idx (ix2 n 0)).toInt := by
  unfold ScatterDims.start
  rw [dif_pos (show (0 : Fin S10.rank) ∈ d1.scatterDimsToOperandDims from List.mem_singleton.mpr rfl)]
  refine congrArg (fun k => (idx k).toInt) ?_
  funext b
  match b with
  | ⟨0, _⟩ => rfl
  | ⟨1, _⟩ => rfl

theorem d1_window (n : Fin 1000000) : d1.window (ix1 n) 0 = 0 := by
  unfold ScatterDims.window
  rw [dif_neg (by decide)]

/-- Row n's one lands on count c exactly when its label word reads c. -/
theorem d1_result (idx : IVec S1000000x1 32) (n : Fin 1000000) (c : Fin 10) :
    d1.resultIdx? (ix1 n) idx = some (ix1 c) ↔ (idx (ix2 n 0)).toInt = (c.val : Int) := by
  rw [resultIdx?_eq_some_iff]
  constructor
  · intro h
    have h0 := h 0
    rw [d1_start, d1_window] at h0
    simpa using h0
  · intro h a
    obtain rfl : a = 0 := Subsingleton.elim _ _
    rw [d1_start, d1_window, h]
    simp

theorem d2_start0 (idx : IVec S1000000x1 32) (n : Fin 1000000) (d : Fin 128) :
    d2.start (ix2 n d) idx 0 = (idx (ix2 n 0)).toInt := by
  unfold ScatterDims.start
  rw [dif_pos (show (0 : Fin S10x128.rank) ∈ d2.scatterDimsToOperandDims from List.mem_singleton.mpr rfl)]
  refine congrArg (fun k => (idx k).toInt) ?_
  funext b
  match b with
  | ⟨0, _⟩ => rfl
  | ⟨1, _⟩ => rfl

theorem d2_start1 (idx : IVec S1000000x1 32) (n : Fin 1000000) (d : Fin 128) :
    d2.start (ix2 n d) idx 1 = 0 := by
  unfold ScatterDims.start
  rw [dif_neg (by decide)]

theorem d2_window0 (n : Fin 1000000) (d : Fin 128) : d2.window (ix2 n d) 0 = 0 := by
  unfold ScatterDims.window
  rw [dif_neg (by decide)]

theorem d2_window1 (n : Fin 1000000) (d : Fin 128) : d2.window (ix2 n d) 1 = d.val := by
  unfold ScatterDims.window
  rw [dif_pos (by decide)]
  rfl

/-- Element (n, d) of the updates lands on (c, d') exactly when row n's label word reads c and d is d'. -/
theorem d2_result (idx : IVec S1000000x1 32) (n : Fin 1000000) (d : Fin 128) (c : Fin 10) (d' : Fin 128) :
    d2.resultIdx? (ix2 n d) idx = some (ix2 c d') ↔ (idx (ix2 n 0)).toInt = (c.val : Int) ∧ d = d' := by
  rw [resultIdx?_eq_some_iff]
  constructor
  · intro h
    have h0 := h 0
    have h1 := h 1
    rw [d2_start0, d2_window0] at h0
    rw [d2_start1, d2_window1] at h1
    refine ⟨by simpa using h0, Fin.ext ?_⟩
    have : ((d.val : Int)) = (d'.val : Int) := by simpa using h1
    exact_mod_cast this
  · rintro ⟨h, rfl⟩ a
    match a with
    | ⟨0, _⟩ =>
      show d2.start (ix2 n d) idx 0 + (d2.window (ix2 n d) 0 : Int) = _
      rw [d2_start0, d2_window0, h]
      simp
    | ⟨1, _⟩ =>
      show d2.start (ix2 n d) idx 1 + (d2.window (ix2 n d) 1 : Int) = _
      rw [d2_start1, d2_window1]
      simp

/-! ## The two scatters read at an index -/

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) :=
  (Fintype.sum_equiv
    (⟨ix1, fun i => i 0, fun _ => rfl, fun i => (eq_ix1 i).symm⟩ : Fin n ≃ (⟨1, ![n]⟩ : Shape).Idx)
    (fun a => f (ix1 a)) f (fun _ => rfl)).symm

/-- The rank-1 scatter at class c: the operand's element plus the updates of the rows whose label word reads c. -/
theorem scatter1_apply (x0 : S10.Idx → EReal) (idx : IVec S1000000x1 32) (u : S1000000.Idx → EReal) (c : Fin 10) :
    Host.scatterAdd (F := Ideal) (φ := .f32) d1 x0 idx u (ix1 c)
      = x0 (ix1 c) + ∑ n : Fin 1000000, if (idx (ix2 n 0)).toInt = (c.val : Int) then u (ix1 n) else 0 := by
  show Ideal.hostScatterAdd d1 x0 idx u (ix1 c) = _
  unfold Ideal.hostScatterAdd
  rw [Finset.sum_filter, sum_idx1]
  exact congrArg (x0 (ix1 c) + ·) (Finset.sum_congr rfl fun n _ => if_congr (d1_result idx n c) rfl rfl)

/-- The rank-2 scatter at (c, d'): the operand's element plus column d' of the rows whose label word reads c. -/
theorem scatter2_apply (x0 : S10x128.Idx → EReal) (idx : IVec S1000000x1 32) (u : S1000000x128.Idx → EReal)
    (c : Fin 10) (d' : Fin 128) :
    Host.scatterAdd (F := Ideal) (φ := .f32) d2 x0 idx u (ix2 c d')
      = x0 (ix2 c d') + ∑ n : Fin 1000000, if (idx (ix2 n 0)).toInt = (c.val : Int) then u (ix2 n d') else 0 := by
  show Ideal.hostScatterAdd d2 x0 idx u (ix2 c d') = _
  unfold Ideal.hostScatterAdd
  rw [Finset.sum_filter, sum_idx2]
  refine congrArg (x0 (ix2 c d') + ·) (Finset.sum_congr rfl fun n _ => ?_)
  refine (Finset.sum_congr rfl fun d _ => if_congr (d2_result idx n d c d') rfl rfl).trans ?_
  by_cases h : (idx (ix2 n 0)).toInt = (c.val : Int)
  · rw [if_pos h]
    refine (Finset.sum_congr rfl fun d _ => if_congr (and_iff_right h) rfl rfl).trans ?_
    rw [Finset.sum_ite_eq', if_pos (Finset.mem_univ _)]
  · rw [if_neg h]
    exact Finset.sum_eq_zero fun d _ => if_neg (fun hh => h hh.1)

/-! ## The label words -/

/-- A word reads c (below ten) as a signed integer exactly when it is c's word. -/
theorem label_iff (w : BitVec 32) (c : Fin 10) : w.toInt = (c.val : Int) ↔ w = BitVec.ofNat 32 c.val := by
  have hc : (BitVec.ofNat 32 c.val).toInt = (c.val : Int) :=
    Predicate.toInt_ofNat_small c.val (by have := c.isLt; omega)
  constructor
  · intro h
    exact BitVec.eq_of_toInt_eq (h.trans hc.symm)
  · rintro rfl
    exact hc

/-- The label column, as the scatters read it, at row n. -/
theorem lbl_apply (t : (⟨S1000000, .i32⟩ : BufTy).Contents (Elt Ideal)) (n : Fin 1000000) :
    val_main_v2 (F := Ideal) t (ix2 n 0) = t (ix1 n) := by
  rw [val_main_v2_apply]
  refine congrArg t ?_
  funext a
  match a with
  | ⟨0, _⟩ => rfl

/-- A sum over all rows of the terms whose label word reads c is the sum over class c's rows. -/
theorem sum_rows (t : (⟨S1000000, .i32⟩ : BufTy).Contents (Elt Ideal)) (c : Fin 10) (f : Fin 1000000 → EReal) :
    (∑ n : Fin 1000000, if (val_main_v2 (F := Ideal) t (ix2 n 0)).toInt = (c.val : Int) then f n else 0)
      = ∑ n ∈ Cert.Spec.rowsOf t c.val, f n := by
  unfold Cert.Spec.rowsOf
  rw [Finset.sum_filter]
  exact Finset.sum_congr rfl fun n _ => if_congr (by rw [lbl_apply]; exact label_iff _ c) rfl rfl

/-- The counts: class c's count. -/
theorem counts_apply (t : (⟨S1000000, .i32⟩ : BufTy).Contents (Elt Ideal)) (c : Fin 10) :
    val_main_v3 (F := Ideal) t (ix1 c) = Cert.Spec.cnt t c.val := by
  unfold val_main_v3 Cert.Spec.cnt
  refine (scatter1_apply _ _ _ c).trans ?_
  rw [val_main_v1_apply, val_main_cst_0_apply, Ideal.ofBits_def, Ideal.ofBits_zero_f32, zero_add]
  refine (Finset.sum_congr rfl fun n _ => ?_).trans (sum_rows t c fun _ => 1)
  rw [val_main_v0_apply, val_main_cst_apply, Ideal.ofBits_def, Ideal.ofBits_one_f32]

/-- The rank-2 scatter of the program, from zeros, at (c, d): column d summed over class c's rows. -/
theorem scatter_rows (t : (⟨S1000000, .i32⟩ : BufTy).Contents (Elt Ideal)) (u : S1000000x128.Idx → EReal)
    (c : Fin 10) (d : Fin 128) :
    Host.scatterAdd (F := Ideal) (φ := .f32) d2 (val_main_v4 (F := Ideal)) (val_main_v2 (F := Ideal) t) u (ix2 c d)
      = ∑ n ∈ Cert.Spec.rowsOf t c.val, u (ix2 n d) := by
  refine (scatter2_apply _ _ _ c d).trans ?_
  rw [val_main_v4_apply, val_main_cst_1_apply, Ideal.ofBits_def, Ideal.ofBits_zero_f32, zero_add]
  exact sum_rows t c fun n => u (ix2 n d)

/-- The sums: column d summed over class c's rows. -/
theorem sums_apply (x : (⟨S1000000x128, .f32⟩ : BufTy).Contents (Elt Ideal))
    (t : (⟨S1000000, .i32⟩ : BufTy).Contents (Elt Ideal)) (c : Fin 10) (d : Fin 128) :
    val_main_v6 (F := Ideal) x t (ix2 c d) = Cert.Spec.sm x t c.val d :=
  scatter_rows t x c d

/-- The squares' scatter: column d of the centered squares summed over class c's rows. -/
theorem sumsq_apply (x : (⟨S1000000x128, .f32⟩ : BufTy).Contents (Elt Ideal))
    (t : (⟨S1000000, .i32⟩ : BufTy).Contents (Elt Ideal)) (c : Fin 10) (d : Fin 128) :
    val_main_v21 (F := Ideal) x t (ix2 c d) = ∑ n ∈ Cert.Spec.rowsOf t c.val, val_main_v18 (F := Ideal) x t (ix2 n d) :=
  scatter_rows t (val_main_v18 (F := Ideal) x t) c d

/-! ## The class means, and their gather at a labelled row -/

/-- The means: class c's column sum over its count. -/
theorem means_apply (x : (⟨S1000000x128, .f32⟩ : BufTy).Contents (Elt Ideal))
    (t : (⟨S1000000, .i32⟩ : BufTy).Contents (Elt Ideal)) (c : Fin 10) (d : Fin 128) :
    val_main_v9 (F := Ideal) x t (ix2 c d) = Ideal.div (Cert.Spec.sm x t c.val d) (Cert.Spec.cnt t c.val) := by
  have hi : idx_main_v7 (idx_main_v8 (ix2 c d)) = ix1 c := by
    funext a
    match a with
    | ⟨0, _⟩ => rfl
  rw [val_main_v9_apply, Ideal.hostDivf_def, sums_apply, val_main_v8_apply, val_main_v7_apply, hi, counts_apply]

/-- A class word below ten is not negative, so the wrap-around of negative labels leaves it alone. -/
theorem sel_small : ∀ c : Fin 10,
    Scalar.select (IntOp.cmpi .slt (BitVec.ofNat 32 c.val) 0#32) (IntOp.addi (BitVec.ofNat 32 c.val) 10#32)
      (BitVec.ofNat 32 c.val) = BitVec.ofNat 32 c.val := by
  decide

/-- The adjusted label column, as the gather reads it, at a row labelled with class c. -/
theorem adj_apply (t : (⟨S1000000, .i32⟩ : BufTy).Contents (Elt Ideal)) (n : Fin 1000000) (c : Fin 10)
    (h : t (ix1 n) = BitVec.ofNat 32 c.val) :
    val_main_v15 (F := Ideal) t (ix2 n 0) = BitVec.ofNat 32 c.val := by
  have hi : idx_main_v15 (ix2 n 0) = ix1 n := by
    funext a
    match a with
    | ⟨0, _⟩ => rfl
  rw [val_main_v15_apply, hi, val_main_v14_apply, val_main_v11_apply, val_main_v13_apply, val_main_v10_apply,
    val_main_c_apply, val_main_v12_apply, val_main_c_2_apply, h]
  exact sel_small c

/-- The gather's dimension numbers. -/
abbrev g : GatherDims S10x128 S1000000x1 S1000000x128 := gather_S10x128_S1000000x1_S1000000x128_1_0_n_n_0_1_1128

/-- The gather at (n, d), where row n's start word is class c's: the operand's row c, column d (no clamping below ten). -/
theorem gather_apply {α : Type} (y : S10x128.Idx → α) (idx : IVec S1000000x1 32) (n : Fin 1000000) (d : Fin 128)
    (c : Fin 10) (h : idx (ix2 n 0) = BitVec.ofNat 32 c.val) : Host.gather g y idx (ix2 n d) = y (ix2 c d) := by
  unfold Host.gather
  refine congrArg y (funext fun a => Fin.ext ?_)
  match a with
  | ⟨0, _⟩ =>
    show g.start (ix2 n d) idx 0 + g.batchCoord (ix2 n d) 0 + g.offCoord (ix2 n d) 0 = c.val
    rw [GatherDims.batchCoord_eq_zero g (ix2 n d) 0 List.not_mem_nil, GatherDims.offCoord_eq_zero g (ix2 n d) 0 (by decide)]
    unfold GatherDims.start
    rw [dif_pos (show (0 : Fin S10x128.rank) ∈ g.startIndexMap from List.mem_singleton.mpr rfl)]
    have hsi : g.siIdx (ix2 n d) ⟨List.idxOf (0 : Fin S10x128.rank) g.startIndexMap,
        List.idxOf_lt_length_iff.2 (List.mem_singleton.mpr rfl)⟩ = ix2 n 0 := by
      funext b
      match b with
      | ⟨0, _⟩ => rfl
      | ⟨1, _⟩ => rfl
    rw [hsi, h, Predicate.toInt_ofNat_small c.val (by have := c.isLt; omega)]
    show min ((c.val : Int).toNat) (10 - 1) + 0 + 0 = c.val
    have := c.isLt
    simp only [Int.toNat_natCast, Nat.add_zero]
    omega
  | ⟨1, _⟩ =>
    show g.start (ix2 n d) idx 1 + g.batchCoord (ix2 n d) 1 + g.offCoord (ix2 n d) 1 = d.val
    rw [GatherDims.batchCoord_eq_zero g (ix2 n d) 1 List.not_mem_nil]
    unfold GatherDims.start
    rw [dif_neg (by decide)]
    unfold GatherDims.offCoord
    rw [dif_pos (by decide)]
    show 0 + 0 + d.val = d.val
    omega

/-! ## The chain down to the result -/

/-- The centered square at (n, d), for a row of class c. -/
theorem sq_apply (x : (⟨S1000000x128, .f32⟩ : BufTy).Contents (Elt Ideal))
    (t : (⟨S1000000, .i32⟩ : BufTy).Contents (Elt Ideal)) (n : Fin 1000000) (d : Fin 128) (c : Fin 10)
    (h : t (ix1 n) = BitVec.ofNat 32 c.val) :
    val_main_v18 (F := Ideal) x t (ix2 n d)
      = (x (ix2 n d) - Ideal.div (Cert.Spec.sm x t c.val d) (Cert.Spec.cnt t c.val))
        * (x (ix2 n d) - Ideal.div (Cert.Spec.sm x t c.val d) (Cert.Spec.cnt t c.val)) := by
  have hg : val_main_v16 (F := Ideal) x t (ix2 n d) = val_main_v9 (F := Ideal) x t (ix2 c d) :=
    gather_apply _ _ n d c (adj_apply t n c h)
  rw [val_main_v18_apply, val_main_v17_apply, Ideal.mulf_def, Ideal.subf_def, hg, means_apply]

/-- One class's trace. -/
theorem trace_apply (x : (⟨S1000000x128, .f32⟩ : BufTy).Contents (Elt Ideal))
    (t : (⟨S1000000, .i32⟩ : BufTy).Contents (Elt Ideal)) (c : Fin 10) :
    val_main_v25 (F := Ideal) x t (ix1 c) = Cert.Spec.refTrace x t c.val := by
  rw [val_main_v25_apply, Ideal.hostDivf_def, val_main_v22_apply, val_main_cst_4_apply, Ideal.ofBits_def,
    Ideal.ofBits_zero_f32, zero_add, val_main_v24_apply, Ideal.subf_def, counts_apply, val_main_v23_apply,
    val_main_cst_5_apply, Ideal.ofBits_def, Ideal.ofBits_one_f32]
  unfold Cert.Spec.refTrace
  refine congrArg (fun s => Ideal.div s (Cert.Spec.cnt t c.val - 1)) (Finset.sum_congr rfl fun k _ => ?_)
  have hk : idx_main_v22 (ix1 c) k = ix2 c k := by
    funext a
    match a with
    | ⟨0, _⟩ => rfl
    | ⟨1, _⟩ => rfl
  rw [hk, sumsq_apply]
  exact Finset.sum_congr rfl fun n hn => sq_apply x t n k c (Finset.mem_filter.mp hn).2

/-- The reference's result, at its one index: the mean of the ten traces, means subtracted first. -/
theorem value (x : (⟨S1000000x128, .f32⟩ : BufTy).Contents (Elt Ideal))
    (t : (⟨S1000000, .i32⟩ : BufTy).Contents (Elt Ideal)) (i : S1.Idx) :
    val_main_v28 (F := Ideal) x t i = Cert.Spec.refVal x t := by
  show val_main_v27 (F := Ideal) x t (Shape.reshapeEquiv shapeCasts_S_S1 i) = _
  rw [val_main_v27_apply, Ideal.hostDivf_def, val_main_v26_apply, val_main_cst_6_apply, val_main_cst_7_apply,
    Ideal.ofBits_def, Ideal.ofBits_zero_f32, zero_add, Ideal.ofBits_def, sum_idx1]
  unfold Cert.Spec.refVal Cert.Spec.ten
  refine congrArg (fun s => Ideal.div s (Ideal.ofBits .f32 0x41200000#32)) ?_
  exact Finset.sum_congr rfl fun c _ => trace_apply x t c

/-! ## The run -/

/-- On every device the reference terminates with its result at the mean of the ten traces (means subtracted first)
    of its two arguments, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v28)
          = (fun _ => Cert.Spec.refVal (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run _ _ _).mono
    (fun _ h c => ⟨(h c).1.trans (((val_main_v28_eq _ _).trans (funext fun i => value _ _ i))), (h c).2.1, (h c).2.2⟩)
    (Cert.ReferenceIdeal.Value.run (F := Ideal) m ρ)

end Cert.RefValue

end
-- ==== Proof.Algebra.lean ====
import proofs.«410710_j31095563223418_2_alg».proof.Proof.Spec
import Mathlib.Data.EReal.Basic
import Mathlib.Data.EReal.Operations
import Mathlib.Data.EReal.Inv
import Mathlib.Algebra.BigOperators.Field
import Mathlib.Algebra.BigOperators.Ring.Finset
import Mathlib.Tactic.FieldSimp
import Mathlib.Tactic.Ring

/-!
  The sum-of-squares identity over the extended reals.  Every entry of the data array is a real number, so
  each class's sums are real; for a class with k ≥ 1 rows, in the reals
  ∑ₙ (xₙ - s/k)² = ∑ₙ xₙ² - s²/k with s = ∑ₙ xₙ, and summing over the columns gives the equality of the two
  numerators.  An empty class has both numerators 0.  The divisions by k - 1 and by the number of classes are
  the same on both sides and are never evaluated.
-/

noncomputable section

open scoped BigOperators

namespace Cert.Spec

open Idealize.ShloMosaic Idealize.ShloMosaic.ValueIdx

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by a nonzero real, in the extended reals, is the real quotient. -/
theorem div_coe (a k : ℝ) (hk : k ≠ 0) : Ideal.div (a : EReal) (k : EReal) = ((a / k : ℝ) : EReal) := by
  unfold Ideal.div
  rw [if_neg (EReal.coe_ne_zero.mpr hk), ← EReal.coe_inv, ← EReal.coe_mul, div_eq_mul_inv]

/-- One column, in the reals: the squared deviations from the mean sum to ∑ g² - (∑ g)² / k, k the number of terms. -/
theorem real_col {ι : Type*} (s : Finset ι) (g : ι → ℝ) (k : ℝ) (hk : k = s.card) (hk0 : k ≠ 0) :
    ∑ n ∈ s, (g n - (∑ m ∈ s, g m) / k) * (g n - (∑ m ∈ s, g m) / k)
      = (∑ n ∈ s, g n * g n) - ((∑ n ∈ s, g n) * (∑ n ∈ s, g n)) / k := by
  have h1 : ∀ n, (g n - (∑ m ∈ s, g m) / k) * (g n - (∑ m ∈ s, g m) / k)
      = g n * g n - (2 * ((∑ m ∈ s, g m) / k)) * g n + ((∑ m ∈ s, g m) / k) * ((∑ m ∈ s, g m) / k) :=
    fun n => by ring
  simp only [h1]
  rw [Finset.sum_add_distrib, Finset.sum_sub_distrib, ← Finset.mul_sum, Finset.sum_const, nsmul_eq_mul, ← hk]
  field_simp
  ring

/-- All columns, in the reals. -/
theorem real_all {ι κ : Type*} (s : Finset ι) (D : Finset κ) (f : ι → κ → ℝ) (k : ℝ) (hk : k = s.card)
    (hk0 : k ≠ 0) :
    ∑ d ∈ D, ∑ n ∈ s, (f n d - (∑ m ∈ s, f m d) / k) * (f n d - (∑ m ∈ s, f m d) / k)
      = (∑ d ∈ D, ∑ n ∈ s, f n d * f n d) - (∑ d ∈ D, (∑ n ∈ s, f n d) * (∑ n ∈ s, f n d)) / k := by
  rw [Finset.sum_div, ← Finset.sum_sub_distrib]
  exact Finset.sum_congr rfl fun d _ => real_col s (fun n => f n d) k hk hk0

/-- The two numerators agree, for real entries, over any finite set of rows and of columns. -/
theorem num_eq {ι κ : Type*} (s : Finset ι) (D : Finset κ) (f : ι → κ → ℝ) :
    (∑ d ∈ D, ∑ n ∈ s, (f n d : EReal) * (f n d : EReal))
        - Ideal.div (∑ d ∈ D, (∑ n ∈ s, (f n d : EReal)) * (∑ n ∈ s, (f n d : EReal)))
            (max (∑ _n ∈ s, (1 : EReal)) 1)
      = ∑ d ∈ D, ∑ n ∈ s,
          ((f n d : EReal) - Ideal.div (∑ m ∈ s, (f m d : EReal)) (∑ _n ∈ s, (1 : EReal)))
            * ((f n d : EReal) - Ideal.div (∑ m ∈ s, (f m d : EReal)) (∑ _n ∈ s, (1 : EReal))) := by
  rcases Finset.eq_empty_or_nonempty s with hs | hs
  · subst hs
    have h1 : Ideal.div (0 : EReal) 1 = 0 := by
      unfold Ideal.div
      rw [if_neg one_ne_zero, zero_mul]
    simp only [Finset.sum_empty, Finset.sum_const_zero, mul_zero, max_eq_right (zero_le_one' EReal), h1, sub_zero]
  · have hcnt : (∑ _n ∈ s, (1 : EReal)) = ((s.card : ℝ) : EReal) := by
      rw [Finset.sum_const, nsmul_one]; rfl
    have hpos : 0 < s.card := Finset.card_pos.mpr hs
    have hk0 : (s.card : ℝ) ≠ 0 := by exact_mod_cast hpos.ne'
    have hk1 : (1 : EReal) ≤ ((s.card : ℝ) : EReal) := by
      rw [← EReal.coe_one, EReal.coe_le_coe_iff]; exact_mod_cast hpos
    rw [hcnt, max_eq_left hk1]
    simp only [← coe_sum, ← EReal.coe_mul, div_coe _ _ hk0, ← EReal.coe_sub]
    rw [EReal.coe_eq_coe_iff]
    exact (real_all s D f _ rfl hk0).symm

variable (x : SX.Idx → EReal) (t : ST.Idx → BitVec 32)

/-- One class's trace is the same by either formula when every entry is real. -/
theorem kerTrace_eq_refTrace (r : SX.Idx → ℝ) (c : ℕ) :
    kerTrace (fun i => (r i : EReal)) t c = refTrace (fun i => (r i : EReal)) t c := by
  have h := num_eq (rowsOf t c) (Finset.univ : Finset (Fin 128)) (fun n d => r (ix2 n d))
  unfold kerTrace refTrace sq sm cnt
  rw [h]

/-- The mean of the ten traces is the same by either formula when every entry of x is finite. -/
theorem kerVal_eq_refVal (hx : ∀ i, x i ≠ ⊤ ∧ x i ≠ ⊥) : kerVal x t = refVal x t := by
  have hxe : x = fun i => (((x i).toReal : ℝ) : EReal) :=
    funext fun i => (EReal.coe_toReal (hx i).1 (hx i).2).symm
  rw [hxe]
  unfold kerVal refVal
  exact congrArg (fun z => Ideal.div z ten)
    (Finset.sum_congr rfl fun c _ => kerTrace_eq_refTrace t (fun i => (x i).toReal) c.val)

end Cert.Spec

end
-- ==== Proof.Finite.lean ====
import proofs.«410710_j31095563223418_2_alg».proof.Pre_finite_inputs
import proofs.«410710_j31095563223418_2_alg».proof.Proof.Gen.Pre_finite_inputs
import Idealize.ShloMosaic.Lib.ReduceAll
import Idealize.ShloMosaic.Lib.ValueIdx
import Idealize.ShloMosaic.PureOps.Ideal
import Mathlib.Data.EReal.Basic
import Mathlib.Data.EReal.Operations

/-!
  The precondition read back.  The predicate takes the absolute value of every entry of the data array, compares
  it with the word of +∞ by "less than", and reduces the results by "and" over both axes; the claim is that the
  result is 1.  A fold by "and" that is 1 met only 1s, so at every index max x (-x) < ⊤, and an extended real whose
  absolute value is below ⊤ is neither ⊤ nor ⊥.
-/

noncomputable section

namespace Cert.Finite

open Idealize.ShloMosaic

/-- The scalar shape has one index. -/
instance : Subsingleton Cert.Pre_finite_inputs.S_.Idx := ⟨fun _ _ => funext fun d => d.elim0⟩

/-- The word 0x7F800000 denotes +∞. -/
theorem ofBits_inf : Ideal.ofBits .f32 0x7F800000#32 = ⊤ := by simp [Ideal.ofBits, Ideal.ieee]

/-- An extended real whose absolute value max x (-x) is below ⊤ is finite. -/
theorem finite_of_abs_lt_top (x : EReal) (h : max x (-x) < ⊤) : x ≠ ⊤ ∧ x ≠ ⊥ := by
  rw [max_lt_iff] at h
  refine ⟨h.1.ne, ?_⟩
  intro hb
  rw [hb, EReal.neg_bot] at h
  exact lt_irrefl _ h.2

/-- The precondition, that the predicate's result is 1, makes every entry of the data array finite. -/
theorem finite_of_pre [Cert.Pre_finite_inputs.Facts]
    (a0 : FVec Ideal Cert.Pre_finite_inputs.S1000000x128 .f32) (a1 : IVec Cert.Pre_finite_inputs.S1000000 32)
    (h : Cert.Pre_finite_inputs.fn (F := Ideal) a0 a1 = fun _ => 1#1) : ∀ i, a0 i ≠ ⊤ ∧ a0 i ≠ ⊥ := by
  intro i
  have e := congrFun h ValueIdx.ix0
  dsimp only [Cert.Pre_finite_inputs.fn] at e
  have hi := Host.reduce_andi_all _ _ _ _ _ e i
  change Ideal.cmp .olt (max (a0 i : EReal) (-(a0 i : EReal))) (Ideal.ofBits .f32 0x7F800000#32) = 1#1 at hi
  rw [ofBits_inf] at hi
  unfold Ideal.cmp at hi
  apply finite_of_abs_lt_top
  by_contra hn
  simp [hn] at hi

end Cert.Finite

end
-- ==== Proof.lean ====
/-
  The certificate's claim.  The kernel streams a million rows of 128 columns once, in blocks of 8192 rows split over
  two cores, and accumulates for each class the column sums, the column sums of squares and the count, as products
  with the masked one-hot matrix of the labels; the host then forms each class's trace as
  (∑ x² - (∑ x)² / max k 1) / (k - 1) and averages the ten traces.  The reference subtracts each class's column means
  before squaring.  With every entry of the data array finite the two agree by the sum-of-squares identity; a row
  whose label is no class enters neither value.  The word-level program's frame needs no value: whatever the
  accumulators hold, the body's loads and stores stay inside their buffers.
-/
import proofs.«410710_j31095563223418_2_alg».proof.Defs
import proofs.«410710_j31095563223418_2_alg».proof.Proof.Gen.Kernel
import proofs.«410710_j31095563223418_2_alg».proof.Proof.Gen.KernelIdeal
import proofs.«410710_j31095563223418_2_alg».proof.Proof.Gen.ReferenceIdeal
import proofs.«410710_j31095563223418_2_alg».proof.Proof.Gen.Pre_finite_inputs
import proofs.«410710_j31095563223418_2_alg».proof.Proof.FrameBits
import proofs.«410710_j31095563223418_2_alg».proof.Proof.Final
import proofs.«410710_j31095563223418_2_alg».proof.Proof.RefValue
import proofs.«410710_j31095563223418_2_alg».proof.Proof.Algebra
import proofs.«410710_j31095563223418_2_alg».proof.Proof.Finite
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    -- the word-level program terminates, faults nowhere, leaves its arguments
    fun m ρ _ => Cert.FrameBits.frame (F := Bits) m ρ,
    -- so does the idealized program: its run with the result dropped
    fun m ρ _ => (θ_run Cert.KernelIdeal.defs _ _).mono (fun _ h c => (h c).2) (Cert.KernelIdeal.Data.run_value m ρ),
    -- and the reference
    fun m ρ _ => (θ_run Cert.ReferenceIdeal.defs _ _).mono (fun _ h c => (h c).2) (Cert.RefValue.run m ρ),
    trivial,
    -- both runs end at the same extended real: the identity needs every data entry finite
    fun m ρ m' ρ' hpre hagree =>
      ⟨fun c _ => Cert.Spec.kerVal (m ((c.tc : Thread _ _).loc Cert.KernelIdeal.main_arg0)) (m ((c.tc : Thread _ _).loc Cert.KernelIdeal.main_arg1)),
        Cert.KernelIdeal.Data.run_value m ρ,
        (θ_run Cert.ReferenceIdeal.defs _ _).mono (fun _ h c => ⟨by
            rw [(h c).1, (hagree c).1, (hagree c).2]
            funext _
            exact (Cert.Spec.kerVal_eq_refVal _ _ (Cert.Finite.finite_of_pre _ _ (hpre c))).symm,
          (h c).2⟩) (Cert.RefValue.run m' ρ')⟩⟩

end Cert.Proof

end
